-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S_ : Shape := ⟨0, ![]⟩

class Facts : Prop where
  bcast_S_S4096x20480 : S_.BroadcastsInDim S4096x20480 (![] : Fin 0 → Fin S4096x20480.rank)
  reducesTo_S4096x20480_S_d0_1 : S4096x20480.ReducesTo [0, 1] S_
  h_S_ : 0 < S_.numel
  bcast_S_S2x20480 : S_.BroadcastsInDim S2x20480 (![] : Fin 0 → Fin S2x20480.rank)
  reducesTo_S2x20480_S_d0_1 : S2x20480.ReducesTo [0, 1] S_
  bcast_S_S128x20480 : S_.BroadcastsInDim S128x20480 (![] : Fin 0 → Fin S128x20480.rank)
  reducesTo_S128x20480_S_d0_1 : S128x20480.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg4 : FVec F S128 .f32) (main_arg5 : FVec F S2x128 .f32) (main_v13 : IVec S_ 1) (main_v16 : IVec S128x20480 1) : IVec S_ 1 :=
  let main_c_5 : IVec S_ 1 := constantI S_ 1 1#1
  let main_v17 : IVec S_ 1 := (fun x v => Host.reduce IntOp.andi x v reducesTo_S128x20480_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S4096x20480 .f32) (main_arg1 : FVec F S4096x20480 .f32) (main_arg2 : FVec F S2x20480 .f32) (main_arg3 : FVec F S128x20480 .f32) (main_arg4 : FVec F S128 .f32) (main_arg5 : FVec F S2x128 .f32) : IVec S_ 1 :=
  let main_v0 : FVec F S4096x20480 .f32 := Host.absf main_arg0
  let main_cst : FVec F S_ .f32 := constant S_ .f32 0x7F800000#32
  let main_v1 : FVec F S4096x20480 .f32 := broadcastInDim S4096x20480 ![] bcast_S_S4096x20480 main_cst
  let main_v2 : IVec S4096x20480 1 := cmpf .olt main_v0 main_v1
  let main_c : IVec S_ 1 := constantI S_ 1 1#1
  let main_v3 : IVec S_ 1 := (fun x v => Host.reduce IntOp.andi x v reducesTo_S4096x20480_S_d0_1 h_S_) main_v2 main_c
  let main_v4 : FVec F S4096x20480 .f32 := Host.absf main_arg1
  let main_cst_0 : FVec F S_ .f32 := constant S_ .f32 0x7F800000#32
  let main_v5 : FVec F S4096x20480 .f32 := broadcastInDim S4096x20480 ![] bcast_S_S4096x20480 main_cst_0
  let main_v6 : IVec S4096x20480 1 := cmpf .olt main_v4 main_v5
  let main_c_1 : IVec S_ 1 := constantI S_ 1 1#1
  let main_v7 : IVec S_ 1 := (fun x v => Host.reduce IntOp.andi x v reducesTo_S4096x20480_S_d0_1 h_S_) main_v6 main_c_1
  let main_v8 : IVec S_ 1 := andi main_v3 main_v7
  let main_v9 : FVec F S2x20480 .f32 := Host.absf main_arg2
  let main_cst_2 : FVec F S_ .f32 := constant S_ .f32 0x7F800000#32
  let main_v10 : FVec F S2x20480 .f32 := broadcastInDim S2x20480 ![] bcast_S_S2x20480 main_cst_2
  let main_v11 : IVec S2x20480 1 := cmpf .olt main_v9 main_v10
  let main_c_3 : IVec S_ 1 := constantI S_ 1 1#1
  let main_v12 : IVec S_ 1 := (fun x v => Host.reduce IntOp.andi x v reducesTo_S2x20480_S_d0_1 h_S_) main_v11 main_c_3
  let main_v13 : IVec S_ 1 := andi main_v8 main_v12
  let main_v14 : FVec F S128x20480 .f32 := Host.absf main_arg3
  let main_cst_4 : FVec F S_ .f32 := constant S_ .f32 0x7F800000#32
  let main_v15 : FVec F S128x20480 .f32 := broadcastInDim S128x20480 ![] bcast_S_S128x20480 main_cst_4
  let main_v16 : IVec S128x20480 1 := cmpf .olt main_v14 main_v15
  fn_part1 (F := F) main_arg4 main_arg5 main_v13 main_v16
-- ==== Kernel.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S130x20480 : Shape := ⟨2, ![130, 20480]⟩
abbrev S_ : Shape := ⟨0, ![]⟩
abbrev S256x20480 : Shape := ⟨2, ![256, 20480]⟩
abbrev S20480x256 : Shape := ⟨2, ![20480, 256]⟩
abbrev S4096x256 : Shape := ⟨2, ![4096, 256]⟩
abbrev S1024x2048 : Shape := ⟨2, ![1024, 2048]⟩
abbrev S2048x256 : Shape := ⟨2, ![2048, 256]⟩
abbrev S1024x256 : Shape := ⟨2, ![1024, 256]⟩
abbrev S4096x2 : Shape := ⟨2, ![4096, 2]⟩
abbrev S4096x128 : Shape := ⟨2, ![4096, 128]⟩
abbrev S1x128 : Shape := ⟨2, ![1, 128]⟩

abbrev nBuf : Space → Nat
  | .hbm => 45
  | .vmem => 14
  | .smem => 0
  | _ => 0

abbrev bufTy : (tb : Table) → Fin (tcTables nBuf tb) → BufTy
  | .hbm, ⟨0, _⟩ => ⟨S4096x20480, .f32⟩
  | .hbm, ⟨1, _⟩ => ⟨S4096x20480, .f32⟩
  | .hbm, ⟨2, _⟩ => ⟨S2x20480, .f32⟩
  | .hbm, ⟨3, _⟩ => ⟨S128x20480, .f32⟩
  | .hbm, ⟨4, _⟩ => ⟨S128, .f32⟩
  | .hbm, ⟨5, _⟩ => ⟨S2x128, .f32⟩
  | .hbm, ⟨6, _⟩ => ⟨S130x20480, .f32⟩
  | .hbm, ⟨7, _⟩ => ⟨S_, .i32⟩
  | .hbm, ⟨8, _⟩ => ⟨S_, .f32⟩
  | .hbm, ⟨9, _⟩ => ⟨S256x20480, .f32⟩
  | .hbm, ⟨10, _⟩ => ⟨S20480x256, .f32⟩
  | .hbm, ⟨11, _⟩ => ⟨S20480x256, .bf16⟩
  | .hbm, ⟨12, _⟩ => ⟨S4096x256, .f32⟩
  | .hbm, ⟨13, _⟩ => ⟨S4096x256, .f32⟩
  | .hbm, ⟨14, _⟩ => ⟨S4096x2, .f32⟩
  | .hbm, ⟨15, _⟩ => ⟨S4096x2, .f32⟩
  | .hbm, ⟨16, _⟩ => ⟨S4096x128, .f32⟩
  | .hbm, ⟨17, _⟩ => ⟨S4096x128, .f32⟩
  | .hbm, ⟨18, _⟩ => ⟨S1x128, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x128, .f32⟩
  | .hbm, ⟨39, _⟩ => ⟨S4096x128, .f32⟩
  | .hbm, ⟨40, _⟩ => ⟨S4096x2, .f32⟩
  | .hbm, ⟨41, _⟩ => ⟨S4096x2, .f32⟩
  | .hbm, ⟨42, _⟩ => ⟨S4096x2, .f32⟩
  | .hbm, ⟨43, _⟩ => ⟨S4096x2, .f32⟩
  | .hbm, ⟨44, _⟩ => ⟨S4096x2, .f32⟩
  | .local _ .vmem, ⟨0, _⟩ => ⟨S1024x2048, .f32⟩
  | .local _ .vmem, ⟨1, _⟩ => ⟨S1024x2048, .f32⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x2048, .f32⟩
  | .local _ .vmem, ⟨8, _⟩ => ⟨S1024x2048, .f32⟩
  | .local _ .vmem, ⟨9, _⟩ => ⟨S2048x256, .bf16⟩
  | .local _ .vmem, ⟨10, _⟩ => ⟨S2048x256, .bf16⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S4096x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_cst_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 10], ![false, false]⟩

def k1_cond2 (i : grid1.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S2x20480_S128x20480_S130x20480_d0 : Shape.Concatenates [S2x20480, S128x20480] S130x20480 0
  pads_S130x20480_S256x20480_01260_000 : S130x20480.Pads (![0, 0] : Fin 2 → Nat) ![126, 0] ![0, 0] S256x20480
  h_S_ : 0 < S_.numel
  transposes_S256x20480_S20480x256_1_0 : S256x20480.Transposes [1, 0] S20480x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S4096x256_S4096x2_0_0 : S4096x256.Slices ![0, 0] S4096x2
  slices_S4096x256_S4096x128_0_2 : S4096x256.Slices ![0, 2] S4096x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S1024x2048_S2048x256_S1024x256_1_0_0_1_n_n_wf : DotDims.WF S1024x2048 S2048x256 S1024x256 [1] [0] [0] [1] [] []
  dot_S4096x128_S2x128_S4096x2_1_1_0_0_n_n_wf : DotDims.WF S4096x128 S2x128 S4096x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x20480.size a
  hwx0_0 : ∀ i : grid0.Coords, EltTy.bits .f32 = 32 ∨ (Rect.block (s := S4096x20480) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S20480x256.size a
  hwx0_1 : ∀ i : grid0.Coords, EltTy.bits .bf16 = 32 ∨ (Rect.block (s := S20480x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .f32 = 32 ∨ (Rect.block (s := S4096x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x20480.size a
  hwx1_0 : ∀ i : grid1.Coords, EltTy.bits .f32 = 32 ∨ (Rect.block (s := S4096x20480) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S20480x256.size a
  hwx1_1 : ∀ i : grid1.Coords, EltTy.bits .bf16 = 32 ∨ (Rect.block (s := S20480x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S4096x256.size a
  hwx1_2 : ∀ i : grid1.Coords, EltTy.bits .f32 = 32 ∨ (Rect.block (s := S4096x256) S1024x256.size (cc1_transform_2 i) (hinb1_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S4096x128_S2x128_S4096x2_1_1_0_0_n_n : DotDims S4096x128 S2x128 S4096x2 where
  lhsContracting := [1]
  rhsContracting := [1]
  lhsNonContracting := [0]
  rhsNonContracting := [0]
  lhsBatch := []
  rhsBatch := []
  wf := dot_S4096x128_S2x128_S4096x2_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x20480 : Shape := ⟨2, ![4096, 20480]⟩
abbrev S2x20480 : Shape := ⟨2, ![2, 20480]⟩
abbrev S128x20480 : Shape := ⟨2, ![128, 20480]⟩
abbrev S128 : Shape := ⟨1, ![128]⟩
abbrev S2x128 : Shape := ⟨2, ![2, 128]⟩
abbrev S4096x2 : Shape := ⟨2, ![4096, 2]⟩
abbrev S4096x128 : Shape := ⟨2, ![4096, 128]⟩
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x20480, .f32⟩
  | .hbm, ⟨1, _⟩ => ⟨S4096x20480, .f32⟩
  | .hbm, ⟨2, _⟩ => ⟨S2x20480, .f32⟩
  | .hbm, ⟨3, _⟩ => ⟨S128x20480, .f32⟩
  | .hbm, ⟨4, _⟩ => ⟨S128, .f32⟩
  | .hbm, ⟨5, _⟩ => ⟨S2x128, .f32⟩
  | .hbm, ⟨6, _⟩ => ⟨S4096x2, .f32⟩
  | .hbm, ⟨7, _⟩ => ⟨S4096x2, .f32⟩
  | .hbm, ⟨8, _⟩ => ⟨S4096x2, .f32⟩
  | .hbm, ⟨9, _⟩ => ⟨S4096x128, .f32⟩
  | .hbm, ⟨10, _⟩ => ⟨S1x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S1x128, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x2, .f32⟩
  | .hbm, ⟨34, _⟩ => ⟨S4096x2, .f32⟩
  | .hbm, ⟨35, _⟩ => ⟨S4096x2, .f32⟩
  | .hbm, ⟨36, _⟩ => ⟨S4096x2, .f32⟩
  | _, _ => ⟨S4096x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S4096x20480_S2x20480_S4096x2_1_1_0_0_n_n_wf : DotDims.WF S4096x20480 S2x20480 S4096x2 [1] [1] [0] [0] [] []
  dot_S4096x20480_S128x20480_S4096x128_1_1_0_0_n_n_wf : DotDims.WF S4096x20480 S128x20480 S4096x128 [1] [1] [0] [0] [] []
  dot_S4096x128_S2x128_S4096x2_1_1_0_0_n_n_wf : DotDims.WF S4096x128 S2x128 S4096x2 [1] [1] [0] [0] [] []

variable [Facts₀]

def dot_S4096x20480_S2x20480_S4096x2_1_1_0_0_n_n : DotDims S4096x20480 S2x20480 S4096x2 where
  lhsContracting := [1]
  rhsContracting := [1]
  lhsNonContracting := [0]
  rhsNonContracting := [0]
  lhsBatch := []
  rhsBatch := []
  wf := dot_S4096x20480_S2x20480_S4096x2_1_1_0_0_n_n_wf
def dot_S4096x20480_S128x20480_S4096x128_1_1_0_0_n_n : DotDims S4096x20480 S128x20480 S4096x128 where
  lhsContracting := [1]
  rhsContracting := [1]
  lhsNonContracting := [0]
  rhsNonContracting := [0]
  lhsBatch := []
  rhsBatch := []
  wf := dot_S4096x20480_S128x20480_S4096x128_1_1_0_0_n_n_wf
def dot_S4096x128_S2x128_S4096x2_1_1_0_0_n_n : DotDims S4096x128 S2x128 S4096x2 where
  lhsContracting := [1]
  rhsContracting := [1]
  lhsNonContracting := [0]
  rhsNonContracting := [0]
  lhsBatch := []
  rhsBatch := []
  wf := dot_S4096x128_S2x128_S4096x2_1_1_0_0_n_n_wf

class Facts : Prop extends Facts₀ where

variable [Facts]
-- ==== Proof.KbR0Shared.lean ====
/-
  Launch 0 of the kernel as printed (the white features times the combined weights), what its three cases share.
  The grid is 4 row blocks by 10 feature chunks; point t is row block t / 10, chunk t % 10. The body zeroes its
  accumulator at chunk 0, adds the chunk's product at every chunk, and copies the accumulator into the output block
  at chunk 9. So a point is in one of three cases — first chunk, middle chunk, last chunk — decided from t % 10; the
  output window is idle (nothing stored, nothing written back) except at a last chunk.
-/
import proofs.«176289_j28192165331581_1_alg».proof.Proof.Gen.Kernel.Launch
import proofs.«176289_j28192165331581_1_alg».proof.Proof.Gen.Kernel.Skeleton
import proofs.«176289_j28192165331581_1_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the launch is entered with -/

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's feature block whenever the body runs, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions of the body, in closed form over the grid -/

/-- "This is the first feature chunk": the condition of the accumulator's reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is the last feature chunk": the condition of the copy into the output block. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x256 .f32 := (Memref.whole cc0_stg2_0 : Memref sig .tc .vmem S1024x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1024x256 .f32 := Memref.whole cc0_scratch0
abbrev VS0_0 : View sig .tc .vmem S1024x256 .f32 := scM0_0.view

/-- The scoped buffers that are neither a staging buffer of this launch nor its accumulator (the other launch's
    staging buffers and accumulator), each at some contents: the body never touches them. -/
abbrev others0 (c : Dev nD) : sProp 𝕄 :=
  Pipeline.scopedRestBut (Ix := Unit) (Name := ℕ) (U := UR sig nD τ) (Lvl := ℕ) (Val := Elt F) spec0 c [cc0_scratch0]

/-- What the launch hands the body besides the windows: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [scM0_0, owns_whole, bigSepL]
  rfl

end Cert.Kernel.Hand

end
-- ==== Proof.KbR0CaseA.lean ====
/-
  Launch 0 of the kernel as printed, a FIRST feature chunk: the body zeroes the accumulator, adds the chunk's product,
  stores the sum back, and stores nothing into the output block. The accumulator may hold anything when the body
  starts; what it holds afterwards is given as the list of the body's stores into it.
-/
import proofs.«176289_j28192165331581_1_alg».proof.Proof.KbR0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first chunk, on whole staging memrefs: the feature block at `x0`, the weight block at `x1`, the
    output block at `xi2` (handed back untouched), the accumulator at anything. The stores it leaves in the
    accumulator are the witness `LS0` the run finds. -/
noncomputable def kernelRun0_A (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S2048x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__linear_kernel i arg2 harg2 arg3 harg3 arg4 harg4 arg5 harg5) K } := by
  refine ⟨[], ?_, fun xi2 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KbR0CaseB.lean ====
/-
  Launch 0 of the kernel as printed, a MIDDLE feature chunk: the body adds the chunk's product to the accumulator and
  stores nothing into the output block. The accumulator holds what the point before left.
-/
import proofs.«176289_j28192165331581_1_alg».proof.Proof.KbR0CaseA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle chunk: the feature block at `x0`, the weight block at `x1`, the output block at `xi2`
    (handed back untouched), the accumulator at `xs0`; its stores into the accumulator are the witness `LS0`. -/
noncomputable def kernelRun0_B (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S2048x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__linear_kernel i arg2 harg2 arg3 harg3 arg4 harg4 arg5 harg5) K } := by
  refine ⟨[], ?_, fun xi2 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KbR0CaseC.lean ====
/-
  Launch 0 of the kernel as printed, a LAST feature chunk: the body adds the chunk's product to the accumulator and
  copies the accumulator into the output block. The accumulator holds what the point before left; the output block
  may hold anything when the body starts.
-/
import proofs.«176289_j28192165331581_1_alg».proof.Proof.KbR0CaseB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last chunk: the feature block at `x0`, the weight block at `x1`, the output block at anything, the
    accumulator at `xs0`; its stores into the output block (`L2`) and into the accumulator (`LS0`) are the witnesses. -/
noncomputable def kernelRun0_C (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__linear_kernel i arg2 harg2 arg3 harg3 arg4 harg4 arg5 harg5) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KbR0Body.lean ====
/-
  Launch 0 of the kernel as printed: what the accumulator and the output block hold after every point, the launch's
  invariant, and the body's obligation at every point.

  After point n the accumulator holds what the point's case leaves in it — at a first chunk from nothing, otherwise over
  what point n − 1 left —, and at a last chunk the output block holds the copy of it. Between points the launch's
  invariant keeps the accumulator at exactly those contents, so the next point's body may read them.
-/
import proofs.«176289_j28192165331581_1_alg».proof.Proof.KbR0CaseC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- At a first or middle chunk the body stores nothing into the output block: a placeholder nothing consults. -/
def out0_idle_2 : Vec F S1024x256 .f32 := VO0_2.read (Elt F) VO0_2.junk

/-- A first chunk's stores into the accumulator cover it. -/
theorem scover0_A_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S2048x256 .bf16) (y : S1024x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x256.size (by sl_kernel_rfl) y

/-- What a first chunk leaves in the accumulator: its stores read back. -/
def sout0_A_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S2048x256 .bf16) : Vec F S1024x256 .f32 :=
  VS0_0.read (Elt F) (VS0_0.writes (Elt F) VS0_0.junk (kernelRun0_A c i arg2 harg2 arg3 harg3 arg4 harg4 arg5 harg5 hc0 hc1 x0 x1).2.1)

/-- A middle chunk's stores into the accumulator cover it. -/
theorem scover0_B_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S2048x256 .bf16) (xs0 : Vec F S1024x256 .f32) (y : S1024x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x256.size (by sl_kernel_rfl) y

/-- What a middle chunk leaves in the accumulator. -/
def sout0_B_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S2048x256 .bf16) (xs0 : Vec F S1024x256 .f32) : Vec F S1024x256 .f32 :=
  VS0_0.read (Elt F) (VS0_0.writes (Elt F) VS0_0.junk (kernelRun0_B c i arg2 harg2 arg3 harg3 arg4 harg4 arg5 harg5 hc0 hc1 x0 x1 xs0).2.1)

/-- A last chunk's store into the output block covers it. -/
theorem cover0_C_2 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) (y : S1024x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x256.size (by sl_kernel_rfl) y

/-- What a last chunk leaves in the output block. -/
def out0_C_2 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) : Vec F S1024x256 .f32 :=
  VO0_2.read (Elt F) (VO0_2.writes (Elt F) VO0_2.junk (kernelRun0_C c i arg2 harg2 arg3 harg3 arg4 harg4 arg5 harg5 hc0 hc1 x0 x1 xs0).1)

/-- A last chunk's stores into the accumulator cover it. -/
theorem scover0_C_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) (y : S1024x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x256.size (by sl_kernel_rfl) y

/-- What a last chunk leaves in the accumulator. -/
def sout0_C_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) : Vec F S1024x256 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- After the body at position `n`: (the output block, the accumulator). The case is the one `n % 10` selects; a
    middle or last chunk runs over what position `n - 1` left in the accumulator. -/
def outsAt0 (c : Dev nD) : (n : ℕ) → n < cfg0.N → Vec F S1024x256 .f32 × Vec F S1024x256 .f32
  | 0, hn => (out0_idle_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 10 = 0 then
      if h1 : (n + 1) % 10 = 9 then
        False.elim (by omega)
      else
        (out0_idle_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 10 = 9 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_idle_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 10 = 0) (h1 : ¬t.val % 10 = 9) :
    outsAt0 V c t.val t.isLt = (out0_idle_2, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = (out0_idle_2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before position `n`: at the launch's first point what the launch hands over (the accumulator at anything);
    afterwards the accumulator at what position `n - 1` left, the other scoped buffers and the generator register
    untouched. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The launch's proof data on core `c`: the arrays as the launch finds them; after the body at point `t` each
    input's buffer at its block and the output's at `outsAt0`'s first component; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; `t % 10` says which case the point is in; the
    invariant hands the body the accumulator at what the point before left (at anything at the launch's first point) and
    takes it back at this point's contents; the other scoped buffers, the generator register and the core's dues pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 40 := lt_of_lt_of_eq t.isLt (show cfg0.N = 40 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 10 = 0
  · have h1 : ¬t.val % 10 = 9 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 10 = 9
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed over: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 40 := N_0; omega), PhiA0_eq]
  iintro ⟨⟨HS0, Hoth⟩, Hg⟩
  isplitl [HS0 Hoth]
  · isplitl [HS0]
    · iexists _; iexact HS0
    iexact Hoth
  iexact Hg

end

end Cert.Kernel.Hand

end
-- ==== Proof.KbR1Shared.lean ====
/-
  Launch 1 of the kernel as printed (the black features times the combined weights), what its three cases share.
  The grid is 4 row blocks by 10 feature chunks; point t is row block t / 10, chunk t % 10. The body zeroes its
  accumulator at chunk 0, adds the chunk's product at every chunk, and copies the accumulator into the output block
  at chunk 9. So a point is in one of three cases — first chunk, middle chunk, last chunk — decided from t % 10; the
  output window is idle (nothing stored, nothing written back) except at a last chunk.
-/
import proofs.«176289_j28192165331581_1_alg».proof.Proof.Gen.Kernel.Launch
import proofs.«176289_j28192165331581_1_alg».proof.Proof.Gen.Kernel.Skeleton
import proofs.«176289_j28192165331581_1_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the launch is entered with -/

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds the point's feature block whenever the body runs, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two conditions of the body, in closed form over the grid -/

/-- "This is the first feature chunk": the condition of the accumulator's reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- "This is the last feature chunk": the condition of the copy into the output block. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1024x256 .f32 := (Memref.whole cc1_stg2_0 : Memref sig .tc .vmem S1024x256 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S1024x256 .f32 := Memref.whole cc1_scratch0
abbrev VS1_0 : View sig .tc .vmem S1024x256 .f32 := scM1_0.view

/-- The scoped buffers that are neither a staging buffer of this launch nor its accumulator (the other launch's
    staging buffers and accumulator), each at some contents: the body never touches them. -/
abbrev others1 (c : Dev nD) : sProp 𝕄 :=
  Pipeline.scopedRestBut (Ix := Unit) (Name := ℕ) (U := UR sig nD τ) (Lvl := ℕ) (Val := Elt F) spec1 c [cc1_scratch0]

/-- What the launch hands the body besides the windows: the accumulator at some contents, the other scoped buffers,
    the generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL]
  rfl

end Cert.Kernel.Hand

end
-- ==== Proof.KbR1CaseA.lean ====
/-
  Launch 1 of the kernel as printed, a FIRST feature chunk: the body zeroes the accumulator, adds the chunk's product,
  stores the sum back, and stores nothing into the output block. The accumulator may hold anything when the body
  starts; what it holds afterwards is given as the list of the body's stores into it.
-/
import proofs.«176289_j28192165331581_1_alg».proof.Proof.KbR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first chunk, on whole staging memrefs: the feature block at `x0`, the weight block at `x1`, the
    output block at `xi2` (handed back untouched), the accumulator at anything. The stores it leaves in the
    accumulator are the witness `LS0` the run finds. -/
noncomputable def kernelRun1_A (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__linear_kernel i arg2 harg2 arg3 harg3 arg4 harg4 arg5 harg5) K } := by
  refine ⟨[], ?_, fun xi2 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KbR1CaseB.lean ====
/-
  Launch 1 of the kernel as printed, a MIDDLE feature chunk: the body adds the chunk's product to the accumulator and
  stores nothing into the output block. The accumulator holds what the point before left.
-/
import proofs.«176289_j28192165331581_1_alg».proof.Proof.KbR1CaseA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle chunk: the feature block at `x0`, the weight block at `x1`, the output block at `xi2`
    (handed back untouched), the accumulator at `xs0`; its stores into the accumulator are the witness `LS0`. -/
noncomputable def kernelRun1_B (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__linear_kernel i arg2 harg2 arg3 harg3 arg4 harg4 arg5 harg5) K } := by
  refine ⟨[], ?_, fun xi2 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KbR1CaseC.lean ====
/-
  Launch 1 of the kernel as printed, a LAST feature chunk: the body adds the chunk's product to the accumulator and
  copies the accumulator into the output block. The accumulator holds what the point before left; the output block
  may hold anything when the body starts.
-/
import proofs.«176289_j28192165331581_1_alg».proof.Proof.KbR1CaseB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last chunk: the feature block at `x0`, the weight block at `x1`, the output block at anything, the
    accumulator at `xs0`; its stores into the output block (`L2`) and into the accumulator (`LS0`) are the witnesses. -/
noncomputable def kernelRun1_C (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__linear_kernel i arg2 harg2 arg3 harg3 arg4 harg4 arg5 harg5) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KbR1Body.lean ====
/-
  Launch 1 of the kernel as printed: what the accumulator and the output block hold after every point, the launch's
  invariant, and the body's obligation at every point.

  After point n the accumulator holds what the point's case leaves in it — at a first chunk from nothing, otherwise over
  what point n − 1 left —, and at a last chunk the output block holds the copy of it. Between points the launch's
  invariant keeps the accumulator at exactly those contents, so the next point's body may read them.
-/
import proofs.«176289_j28192165331581_1_alg».proof.Proof.KbR1CaseC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- At a first or middle chunk the body stores nothing into the output block: a placeholder nothing consults. -/
def out1_idle_2 : Vec F S1024x256 .f32 := VO1_2.read (Elt F) VO1_2.junk

/-- A first chunk's stores into the accumulator cover it. -/
theorem scover1_A_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .bf16) (y : S1024x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x256.size (by sl_kernel_rfl) y

/-- What a first chunk leaves in the accumulator: its stores read back. -/
def sout1_A_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .bf16) : Vec F S1024x256 .f32 :=
  VS1_0.read (Elt F) (VS1_0.writes (Elt F) VS1_0.junk (kernelRun1_A c i arg2 harg2 arg3 harg3 arg4 harg4 arg5 harg5 hc0 hc1 x0 x1).2.1)

/-- A middle chunk's stores into the accumulator cover it. -/
theorem scover1_B_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .bf16) (xs0 : Vec F S1024x256 .f32) (y : S1024x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x256.size (by sl_kernel_rfl) y

/-- What a middle chunk leaves in the accumulator. -/
def sout1_B_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .bf16) (xs0 : Vec F S1024x256 .f32) : Vec F S1024x256 .f32 :=
  VS1_0.read (Elt F) (VS1_0.writes (Elt F) VS1_0.junk (kernelRun1_B c i arg2 harg2 arg3 harg3 arg4 harg4 arg5 harg5 hc0 hc1 x0 x1 xs0).2.1)

/-- A last chunk's store into the output block covers it. -/
theorem cover1_C_2 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) (y : S1024x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x256.size (by sl_kernel_rfl) y

/-- What a last chunk leaves in the output block. -/
def out1_C_2 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) : Vec F S1024x256 .f32 :=
  VO1_2.read (Elt F) (VO1_2.writes (Elt F) VO1_2.junk (kernelRun1_C c i arg2 harg2 arg3 harg3 arg4 harg4 arg5 harg5 hc0 hc1 x0 x1 xs0).1)

/-- A last chunk's stores into the accumulator cover it. -/
theorem scover1_C_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) (y : S1024x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x256.size (by sl_kernel_rfl) y

/-- What a last chunk leaves in the accumulator. -/
def sout1_C_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) : Vec F S1024x256 .f32 :=
  VS1_0.read (Elt F) (VS1_0.writes (Elt F) VS1_0.junk (kernelRun1_C c i arg2 harg2 arg3 harg3 arg4 harg4 arg5 harg5 hc0 hc1 x0 x1 xs0).2.1)

/-! ## What the output block and the accumulator hold after each point -/

/-- After the body at position `n`: (the output block, the accumulator). The case is the one `n % 10` selects; a
    middle or last chunk runs over what position `n - 1` left in the accumulator. -/
def outsAt1 (c : Dev nD) : (n : ℕ) → n < cfg1.N → Vec F S1024x256 .f32 × Vec F S1024x256 .f32
  | 0, hn => (out1_idle_2, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 10 = 0 then
      if h1 : (n + 1) % 10 = 9 then
        False.elim (by omega)
      else
        (out1_idle_2, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 10 = 9 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_idle_2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_idle_2, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_idle_2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before position `n`: at the launch's first point what the launch hands over (the accumulator at anything);
    afterwards the accumulator at what position `n - 1` left, the other scoped buffers and the generator register
    untouched. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

/-- The launch's proof data on core `c`: the arrays as the launch finds them; after the body at point `t` each
    input's buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; `t % 10` says which case the point is in; the
    invariant hands the body the accumulator at what the point before left (at anything at the launch's first point) and
    takes it back at this point's contents; the other scoped buffers, the generator register and the core's dues pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 40 := lt_of_lt_of_eq t.isLt (show cfg1.N = 40 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 10 = 0
  · have h1 : ¬t.val % 10 = 9 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 10 = 9
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 40 := N_1; omega), PhiA1_eq]
  iintro ⟨⟨HS0, Hoth⟩, Hg⟩
  isplitl [HS0 Hoth]
  · isplitl [HS0]
    · iexists _; iexact HS0
    iexact Hoth
  iexact Hg

end

end Cert.Kernel.Hand

end
-- ==== Proof.KbRun.lean ====
/-
  The kernel as printed's whole run: the two launches as segments of @main between its stretches of host lines, and the
  run's end — every weakly fair execution terminates, the argument arrays end as launched, and the result buffer
  holds what the host lines after the launches compute from what the two launches left.

  Between two items of @main a core holds every unscoped buffer at named contents: the launch memory, then each host
  stretch applied, and after a launch its output array at what the launch's write-backs leave (the library's fold of
  the flushed blocks) with every other buffer as it was. Each launch is entered by splitting its three arrays out of
  those buffers and left by putting them back; the accumulator and the other scoped buffers go into the launch's
  invariant and come back out; nothing is owed at any point.
-/
import proofs.«176289_j28192165331581_1_alg».proof.Proof.KbR0Body
import proofs.«176289_j28192165331581_1_alg».proof.Proof.KbR1Body
import proofs.«176289_j28192165331581_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the launches -/

/-- What launch 0 is entered with, read at the TensorCore's references. -/
abbrev E3 : (c : Dev nD) → (b : Ref sig .tc) → Buf (Elt F) ((c : Thread nD τ).loc b) := fun c b => Gen.V3 m c b

/-- At launch 0's exit: its arrays at what the pipeline leaves, every other buffer as entered. -/
def X4 (c : Dev nD) : Valuation τ sig (Elt F) :=
  Pipeline.withArrays spec0 c (Gen.V3 m c) fun w => (dat0 (E3 m) c).arrAt w cfg0.N

/-- The same contents as the generated valuation spells them: only the output array changed. -/
abbrev Y4 (c : Dev nD) : Valuation τ sig (Elt F) := Function.update (Gen.V3 m c) main_v4 (X4 m c main_v4)

/-- What launch 1 is entered with. -/
abbrev E4 : (c : Dev nD) → (b : Ref sig .tc) → Buf (Elt F) ((c : Thread nD τ).loc b) := fun c b => Y4 m c b

/-- At launch 1's exit. -/
def X5 (c : Dev nD) : Valuation τ sig (Elt F) :=
  Pipeline.withArrays spec1 c (Y4 m c) fun w => (dat1 (E4 m) c).arrAt w cfg1.N

/-- What the two launches leave in their output arrays, as the unknowns of the generated valuations. -/
def outsOf : Gen.Outs (F := F) := fun j r c => if j = 4 then X4 m c r else X5 m c r

theorem V4_outsOf (c : Dev nD) : Gen.V4 m (outsOf m) c = Y4 m c := rfl
theorem outsOf_4 (c : Dev nD) : outsOf m 4 main_v4 c = (dat0 (E3 m) c).arrAt 2 cfg0.N := by
  show X4 m c main_v4 = _
  unfold X4; exact Pipeline.withArrays_arr spec0 launch0.win.arr_inj c _ _ 2
theorem outsOf_5 (c : Dev nD) : outsOf m 5 main_v5 c = (dat1 (E4 m) c).arrAt 2 cfg1.N := by
  show X5 m c main_v5 = _
  unfold X5; exact Pipeline.withArrays_arr spec1 launch1.win.arr_inj c _ _ 2

/-- At launch 0's exit each of its arrays holds what the pipeline leaves, in the generated valuation's spelling. -/
theorem hF0 (c : Dev nD) (w : Fin cfg0.W) : (dat0 (E3 m) c).arrAt w cfg0.N = Gen.V4 m (outsOf m) c (Pipeline.arrRef spec0 w) := by
  rw [V4_outsOf]
  match w with
  | ⟨0, _⟩ =>
    exact (((dat0 (E3 m) c).arrAt_in 0 rfl _).trans (A_eq0 (E3 m) c 0)).trans
      (Function.update_of_ne (StableHlo.devRef_ne_of_ne (by decide) : (Proc.devRef .tc main_arg0 : DevRef τ sig) ≠ Proc.devRef .tc main_v4) _ _).symm
  | ⟨1, _⟩ =>
    exact (((dat0 (E3 m) c).arrAt_in 1 rfl _).trans (A_eq0 (E3 m) c 1)).trans
      (Function.update_of_ne (StableHlo.devRef_ne_of_ne (by decide) : (Proc.devRef .tc main_v3 : DevRef τ sig) ≠ Proc.devRef .tc main_v4) _ _).symm
  | ⟨2, _⟩ =>
    show (dat0 (E3 m) c).arrAt 2 cfg0.N = Function.update (Gen.V3 m c) (Proc.devRef .tc main_v4) (X4 m c main_v4) (Proc.devRef .tc main_v4)
    rw [Function.update_self]
    unfold X4
    exact (Pipeline.withArrays_arr spec0 launch0.win.arr_inj c (Gen.V3 m c) (fun w => (dat0 (E3 m) c).arrAt w cfg0.N) 2).symm
theorem hrest0 (c : Dev nD) : ∀ b, b ∉ Finset.univ.image (Pipeline.arrRef spec0) → Gen.V4 m (outsOf m) c b = Gen.V3 m c b := by
  intro b hb
  rw [V4_outsOf]
  exact Function.update_of_ne (StableHlo.devRef_ne_of_ne (fun e => hb (Finset.mem_image.mpr ⟨2, Finset.mem_univ _, e.symm⟩))) _ _

theorem hF1 (c : Dev nD) (w : Fin cfg1.W) : (dat1 (E4 m) c).arrAt w cfg1.N = Gen.V5 m (outsOf m) c (Pipeline.arrRef spec1 w) := by
  match w with
  | ⟨0, _⟩ =>
    exact (((dat1 (E4 m) c).arrAt_in 0 rfl _).trans (A_eq1 (E4 m) c 0)).trans
      (Function.update_of_ne (StableHlo.devRef_ne_of_ne (by decide) : (Proc.devRef .tc main_arg1 : DevRef τ sig) ≠ Proc.devRef .tc main_v5) _ _).symm
  | ⟨1, _⟩ =>
    exact (((dat1 (E4 m) c).arrAt_in 1 rfl _).trans (A_eq1 (E4 m) c 1)).trans
      (Function.update_of_ne (StableHlo.devRef_ne_of_ne (by decide) : (Proc.devRef .tc main_v3 : DevRef τ sig) ≠ Proc.devRef .tc main_v5) _ _).symm
  | ⟨2, _⟩ =>
    show (dat1 (E4 m) c).arrAt 2 cfg1.N = Function.update (Gen.V4 m (outsOf m) c) (Proc.devRef .tc main_v5) (X5 m c main_v5) (Proc.devRef .tc main_v5)
    rw [Function.update_self]
    unfold X5
    exact (Pipeline.withArrays_arr spec1 launch1.win.arr_inj c (Y4 m c) (fun w => (dat1 (E4 m) c).arrAt w cfg1.N) 2).symm
theorem hrest1 (c : Dev nD) : ∀ b, b ∉ Finset.univ.image (Pipeline.arrRef spec1) → Gen.V5 m (outsOf m) c b = Gen.V4 m (outsOf m) c b := by
  intro b hb
  exact Function.update_of_ne (StableHlo.devRef_ne_of_ne (fun e => hb (Finset.mem_image.mpr ⟨2, Finset.mem_univ _, e.symm⟩))) _ _

/-! ## The proof data family and what rides beside the buffers -/

/-- Every pipeline's proof data, each at its launch's entry contents. -/
def pdats : (p : Fin 2) → (c : Dev nD) → Dat τ (Elt F) Unit ℕ (UR sig nD τ) ℕ (Pipeline.pin (pcfgs (F := F)) Gen.adm p) c
  | ⟨0, _⟩ => fun c => dat0 (E3 m) c
  | ⟨1, _⟩ => fun c => dat1 (E4 m) c

abbrev 𝒱₀ : Variants := Variants.none
abbrev L : GSem nD τ sig → Finset Unit := fun _ => ∅
abbrev lv : GSem nD τ sig → Unit → ℕ := fun _ _ => 0
/-- Beside the buffers, through every item: the generator register at some state and the core owing nothing. -/
abbrev R (c : Dev nD) : sProp 𝕄 := iprop((∃ r, prngReg c r) ∗ ∃ W, owes (c : Thread nD τ) (0 : CellTallies nD τ sig Unit) W)

/-! ## The launches as segments -/

set_option backward.isDefEq.respectTransparency.types false in
/-- Launch 0 as a segment: entered from every unscoped buffer at the contents after the host lines before it, left with
    its output array at what the write-backs leave. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E3 m) c)
    unfold Pipeline.ΦA
    iintro ⟨Hp, -, Hr⟩
    isplitl [Hr]; · iexact Hr
    iexact Hp
  hout c := by
    rw [Pipeline.ownSems0_none]
    refine BIBase.Entails.trans (hout0 (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (fun b => Gen.V4 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment, likewise. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (Gen.V4 m (outsOf m) c) ∗ R c)
  post c := iprop(StableHlo.held (c : Thread nD τ) (Pipeline.ucRefs τ sig) (Gen.V5 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V4 m (outsOf m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V4 m (outsOf m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E4 m) c)
    unfold Pipeline.ΦA
    iintro ⟨Hp, -, Hr⟩
    isplitl [Hr]; · iexact Hr
    iexact Hp
  hout c := by
    rw [Pipeline.ownSems0_none]
    refine BIBase.Entails.trans (hout1 (E4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V4 m (outsOf m) c b) (fun b => Gen.V5 m (outsOf m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- At the compiled mesh, from any memory with zero counters: every weakly fair execution of @main terminates, nothing
    faulting; the result buffer ends at what the last host lines compute from what the launches left (the generated
    valuation `Gen.V10` at the launches' outputs `outsOf`), and every argument array ends as launched. -/
theorem run_main : θ_run defs (onTc (τ := τ) (main (F := F))) ⟨m, fun _ => 0, ρ⟩ (fun r => ∀ c : Dev nD,
      r.2.mem ((c.tc : Thread nD τ).loc main_v22) = Gen.V10 m (outsOf m) c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ 𝒱₀ L lv m ρ main
    (Gen.segs m (outsOf m) 𝒱₀ L lv (fun _ => R) () (pdats m) (reg0 m) (reg1 m))
    (fun c Q => by
      rewrite [main_chain c, Pipeline.Seg.run_eq_chain,
        show (Gen.segs m (outsOf m) 𝒱₀ L lv (fun _ => R) () (pdats m) (reg0 m) (reg1 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V10 m (outsOf m) c) ∗ ∃ r, prngReg c r))
    (hch := fun c => ⟨.rfl, .rfl, .rfl, .rfl, .rfl, .rfl, .rfl, .rfl, .rfl, .rfl, ?_⟩)
    (hinit := ?_) (QY := fun c s => s.mem ((c.tc : Thread nD τ).loc main_v22) = Gen.V10 m (outsOf m) c main_v22 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the last item's exit: the buffers, the register, and the core owing nothing
    show (iprop(StableHlo.held (c : Thread nD τ) (Pipeline.ucRefs τ sig) (Gen.V10 m (outsOf m) c) ∗ R c) : sProp 𝕄)
      ⊢ iprop((StableHlo.held (c : Thread nD τ) (Pipeline.ucRefs τ sig) (Gen.V10 m (outsOf m) c) ∗ ∃ r, prngReg c r)
          ∗ ∃ W, owes (c : Thread nD τ) (0 : CellTallies nD τ sig Unit) W)
    iintro ⟨Hh, Hp, HO⟩
    isplitl [Hh Hp]
    · isplitl [Hh]; · iexact Hh
      iexact Hp
    iexact HO
  · -- the launch
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: each buffer read off the last valuation
    unfold StableHlo.held
    iintro ⟨⟨Hh, -⟩, HSI⟩
    ihave Hr := (pointsTo_read_all (Pipeline.ucRefs τ sig) (fun b => ((c : Thread nD τ).1, b)) (Gen.V10 m (outsOf m) c) s') $$ [Hh HSI]
    · isplitl [Hh] <;> iassumption
    icases Hr with ⟨%h, HSI⟩
    imodintro
    isplitr
    · ipureintro
      exact ⟨h (Proc.devRef .tc main_v22) (Finset.mem_filter.mpr ⟨StableHlo.devRef_mem_tcRefs main_v22, by decide⟩),
        (h (Proc.devRef .tc main_arg0) (Finset.mem_filter.mpr ⟨StableHlo.devRef_mem_tcRefs main_arg0, by decide⟩)).trans (Gen.V10_main_arg0 m (outsOf m) c),
        (h (Proc.devRef .tc main_arg1) (Finset.mem_filter.mpr ⟨StableHlo.devRef_mem_tcRefs main_arg1, by decide⟩)).trans (Gen.V10_main_arg1 m (outsOf m) c),
        (h (Proc.devRef .tc main_arg2) (Finset.mem_filter.mpr ⟨StableHlo.devRef_mem_tcRefs main_arg2, by decide⟩)).trans (Gen.V10_main_arg2 m (outsOf m) c),
        (h (Proc.devRef .tc main_arg3) (Finset.mem_filter.mpr ⟨StableHlo.devRef_mem_tcRefs main_arg3, by decide⟩)).trans (Gen.V10_main_arg3 m (outsOf m) c),
        (h (Proc.devRef .tc main_arg4) (Finset.mem_filter.mpr ⟨StableHlo.devRef_mem_tcRefs main_arg4, by decide⟩)).trans (Gen.V10_main_arg4 m (outsOf m) c),
        (h (Proc.devRef .tc main_arg5) (Finset.mem_filter.mpr ⟨StableHlo.devRef_mem_tcRefs main_arg5, by decide⟩)).trans (Gen.V10_main_arg5 m (outsOf m) c)⟩
    · iexact HSI

end Cert.Kernel.Hand

end
-- ==== Proof.KiR0Shared.lean ====
/-
  Launch 0 of the idealized kernel (the white features times the combined weights), what its three cases share.
  The grid is 4 row blocks by 10 feature chunks; point t is row block t / 10, chunk t % 10. The body zeroes its
  accumulator at chunk 0, adds the chunk's product at every chunk, and copies the accumulator into the output block
  at chunk 9. So a point is in one of three cases — first chunk, middle chunk, last chunk — decided from t % 10; the
  output window is idle (nothing stored, nothing written back) except at a last chunk.
-/
import proofs.«176289_j28192165331581_1_alg».proof.Proof.Gen.KernelIdeal.Launch
import proofs.«176289_j28192165331581_1_alg».proof.Proof.Gen.KernelIdeal.Skeleton
import proofs.«176289_j28192165331581_1_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the launch is entered with -/

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds the point's feature block whenever the body runs, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions of the body, in closed form over the grid -/

/-- "This is the first feature chunk": the condition of the accumulator's reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is the last feature chunk": the condition of the copy into the output block. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x256 .f32 := (Memref.whole cc0_stg2_0 : Memref sig .tc .vmem S1024x256 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S1024x256 .f32 := Memref.whole cc0_scratch0
abbrev VS0_0 : View sig .tc .vmem S1024x256 .f32 := scM0_0.view

/-- The scoped buffers that are neither a staging buffer of this launch nor its accumulator (the other launch's
    staging buffers and accumulator), each at some contents: the body never touches them. -/
abbrev others0 (c : Dev nD) : sProp 𝕄 :=
  Pipeline.scopedRestBut (Ix := Unit) (Name := ℕ) (U := UR sig nD τ) (Lvl := ℕ) (Val := Elt F) spec0 c [cc0_scratch0]

/-- What the launch hands the body besides the windows: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [Pipeline.scopedRest_split_of_list spec0 c [cc0_scratch0] (by decide) (by decide)]
  simp only [scM0_0, owns_whole, bigSepL]
  rfl

end Cert.KernelIdeal.Hand

end
-- ==== Proof.KiR0CaseA.lean ====
/-
  Launch 0 of the idealized kernel, a FIRST feature chunk: the body zeroes the accumulator, adds the chunk's product,
  stores the sum back, and stores nothing into the output block. The accumulator may hold anything when the body
  starts; what it holds afterwards is given as the list of the body's stores into it.
-/
import proofs.«176289_j28192165331581_1_alg».proof.Proof.KiR0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first chunk, on whole staging memrefs: the feature block at `x0`, the weight block at `x1`, the
    output block at `xi2` (handed back untouched), the accumulator at anything. The stores it leaves in the
    accumulator are the witness `LS0` the run finds. -/
noncomputable def kernelRun0_A (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S2048x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__linear_kernel i arg2 harg2 arg3 harg3 arg4 harg4 arg5 harg5) K } := by
  refine ⟨[], ?_, fun xi2 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR0CaseB.lean ====
/-
  Launch 0 of the idealized kernel, a MIDDLE feature chunk: the body adds the chunk's product to the accumulator and
  stores nothing into the output block. The accumulator holds what the point before left.
-/
import proofs.«176289_j28192165331581_1_alg».proof.Proof.KiR0CaseA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle chunk: the feature block at `x0`, the weight block at `x1`, the output block at `xi2`
    (handed back untouched), the accumulator at `xs0`; its stores into the accumulator are the witness `LS0`. -/
noncomputable def kernelRun0_B (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S2048x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__linear_kernel i arg2 harg2 arg3 harg3 arg4 harg4 arg5 harg5) K } := by
  refine ⟨[], ?_, fun xi2 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR0CaseC.lean ====
/-
  Launch 0 of the idealized kernel, a LAST feature chunk: the body adds the chunk's product to the accumulator and
  copies the accumulator into the output block. The accumulator holds what the point before left; the output block
  may hold anything when the body starts.
-/
import proofs.«176289_j28192165331581_1_alg».proof.Proof.KiR0CaseB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last chunk: the feature block at `x0`, the weight block at `x1`, the output block at anything, the
    accumulator at `xs0`; its stores into the output block (`L2`) and into the accumulator (`LS0`) are the witnesses. -/
noncomputable def kernelRun0_C (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__linear_kernel i arg2 harg2 arg3 harg3 arg4 harg4 arg5 harg5) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KiR0Body.lean ====
/-
  Launch 0 of the idealized kernel: what the accumulator and the output block hold after every point, the launch's
  invariant, and the body's obligation at every point.

  After point n the accumulator holds what the point's case leaves in it — at a first chunk from nothing, otherwise over
  what point n − 1 left —, and at a last chunk the output block holds the copy of it. Between points the launch's
  invariant keeps the accumulator at exactly those contents, so the next point's body may read them.
-/
import proofs.«176289_j28192165331581_1_alg».proof.Proof.KiR0CaseC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- At a first or middle chunk the body stores nothing into the output block: a placeholder nothing consults. -/
def out0_idle_2 : Vec F S1024x256 .f32 := VO0_2.read (Elt F) VO0_2.junk

/-- A first chunk's stores into the accumulator cover it. -/
theorem scover0_A_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S2048x256 .bf16) (y : S1024x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x256.size (by sl_kernel_rfl) y

/-- What a first chunk leaves in the accumulator: its stores read back. -/
def sout0_A_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S2048x256 .bf16) : Vec F S1024x256 .f32 :=
  VS0_0.read (Elt F) (VS0_0.writes (Elt F) VS0_0.junk (kernelRun0_A c i arg2 harg2 arg3 harg3 arg4 harg4 arg5 harg5 hc0 hc1 x0 x1).2.1)

/-- A middle chunk's stores into the accumulator cover it. -/
theorem scover0_B_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S2048x256 .bf16) (xs0 : Vec F S1024x256 .f32) (y : S1024x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x256.size (by sl_kernel_rfl) y

/-- What a middle chunk leaves in the accumulator. -/
def sout0_B_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S2048x256 .bf16) (xs0 : Vec F S1024x256 .f32) : Vec F S1024x256 .f32 :=
  VS0_0.read (Elt F) (VS0_0.writes (Elt F) VS0_0.junk (kernelRun0_B c i arg2 harg2 arg3 harg3 arg4 harg4 arg5 harg5 hc0 hc1 x0 x1 xs0).2.1)

/-- A last chunk's store into the output block covers it. -/
theorem cover0_C_2 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) (y : S1024x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x256.size (by sl_kernel_rfl) y

/-- What a last chunk leaves in the output block. -/
def out0_C_2 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) : Vec F S1024x256 .f32 :=
  VO0_2.read (Elt F) (VO0_2.writes (Elt F) VO0_2.junk (kernelRun0_C c i arg2 harg2 arg3 harg3 arg4 harg4 arg5 harg5 hc0 hc1 x0 x1 xs0).1)

/-- A last chunk's stores into the accumulator cover it. -/
theorem scover0_C_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) (y : S1024x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x256.size (by sl_kernel_rfl) y

/-- What a last chunk leaves in the accumulator. -/
def sout0_C_0 (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) : Vec F S1024x256 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- After the body at position `n`: (the output block, the accumulator). The case is the one `n % 10` selects; a
    middle or last chunk runs over what position `n - 1` left in the accumulator. -/
def outsAt0 (c : Dev nD) : (n : ℕ) → n < cfg0.N → Vec F S1024x256 .f32 × Vec F S1024x256 .f32
  | 0, hn => (out0_idle_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 10 = 0 then
      if h1 : (n + 1) % 10 = 9 then
        False.elim (by omega)
      else
        (out0_idle_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 10 = 9 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_idle_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 10 = 0) (h1 : ¬t.val % 10 = 9) :
    outsAt0 V c t.val t.isLt = (out0_idle_2, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = (out0_idle_2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before position `n`: at the launch's first point what the launch hands over (the accumulator at anything);
    afterwards the accumulator at what position `n - 1` left, the other scoped buffers and the generator register
    untouched. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The launch's proof data on core `c`: the arrays as the launch finds them; after the body at point `t` each
    input's buffer at its block and the output's at `outsAt0`'s first component; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; `t % 10` says which case the point is in; the
    invariant hands the body the accumulator at what the point before left (at anything at the launch's first point) and
    takes it back at this point's contents; the other scoped buffers, the generator register and the core's dues pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 40 := lt_of_lt_of_eq t.isLt (show cfg0.N = 40 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 10 = 0
  · have h1 : ¬t.val % 10 = 9 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 10 = 9
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed over: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 40 := N_0; omega), PhiA0_eq]
  iintro ⟨⟨HS0, Hoth⟩, Hg⟩
  isplitl [HS0 Hoth]
  · isplitl [HS0]
    · iexists _; iexact HS0
    iexact Hoth
  iexact Hg

end

end Cert.KernelIdeal.Hand

end
-- ==== Proof.KiR1Shared.lean ====
/-
  Launch 1 of the idealized kernel (the black features times the combined weights), what its three cases share.
  The grid is 4 row blocks by 10 feature chunks; point t is row block t / 10, chunk t % 10. The body zeroes its
  accumulator at chunk 0, adds the chunk's product at every chunk, and copies the accumulator into the output block
  at chunk 9. So a point is in one of three cases — first chunk, middle chunk, last chunk — decided from t % 10; the
  output window is idle (nothing stored, nothing written back) except at a last chunk.
-/
import proofs.«176289_j28192165331581_1_alg».proof.Proof.Gen.KernelIdeal.Launch
import proofs.«176289_j28192165331581_1_alg».proof.Proof.Gen.KernelIdeal.Skeleton
import proofs.«176289_j28192165331581_1_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the launch is entered with -/

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds the point's feature block whenever the body runs, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two conditions of the body, in closed form over the grid -/

/-- "This is the first feature chunk": the condition of the accumulator's reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- "This is the last feature chunk": the condition of the copy into the output block. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1024x256 .f32 := (Memref.whole cc1_stg2_0 : Memref sig .tc .vmem S1024x256 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1_0 : Memref sig .tc .vmem S1024x256 .f32 := Memref.whole cc1_scratch0
abbrev VS1_0 : View sig .tc .vmem S1024x256 .f32 := scM1_0.view

/-- The scoped buffers that are neither a staging buffer of this launch nor its accumulator (the other launch's
    staging buffers and accumulator), each at some contents: the body never touches them. -/
abbrev others1 (c : Dev nD) : sProp 𝕄 :=
  Pipeline.scopedRestBut (Ix := Unit) (Name := ℕ) (U := UR sig nD τ) (Lvl := ℕ) (Val := Elt F) spec1 c [cc1_scratch0]

/-- What the launch hands the body besides the windows: the accumulator at some contents, the other scoped buffers,
    the generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole, bigSepL]
  rfl

end Cert.KernelIdeal.Hand

end
-- ==== Proof.KiR1CaseA.lean ====
/-
  Launch 1 of the idealized kernel, a FIRST feature chunk: the body zeroes the accumulator, adds the chunk's product,
  stores the sum back, and stores nothing into the output block. The accumulator may hold anything when the body
  starts; what it holds afterwards is given as the list of the body's stores into it.
-/
import proofs.«176289_j28192165331581_1_alg».proof.Proof.KiR1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first chunk, on whole staging memrefs: the feature block at `x0`, the weight block at `x1`, the
    output block at `xi2` (handed back untouched), the accumulator at anything. The stores it leaves in the
    accumulator are the witness `LS0` the run finds. -/
noncomputable def kernelRun1_A (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__linear_kernel i arg2 harg2 arg3 harg3 arg4 harg4 arg5 harg5) K } := by
  refine ⟨[], ?_, fun xi2 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR1CaseB.lean ====
/-
  Launch 1 of the idealized kernel, a MIDDLE feature chunk: the body adds the chunk's product to the accumulator and
  stores nothing into the output block. The accumulator holds what the point before left.
-/
import proofs.«176289_j28192165331581_1_alg».proof.Proof.KiR1CaseA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle chunk: the feature block at `x0`, the weight block at `x1`, the output block at `xi2`
    (handed back untouched), the accumulator at `xs0`; its stores into the accumulator are the witness `LS0`. -/
noncomputable def kernelRun1_B (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__linear_kernel i arg2 harg2 arg3 harg3 arg4 harg4 arg5 harg5) K } := by
  refine ⟨[], ?_, fun xi2 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR1CaseC.lean ====
/-
  Launch 1 of the idealized kernel, a LAST feature chunk: the body adds the chunk's product to the accumulator and
  copies the accumulator into the output block. The accumulator holds what the point before left; the output block
  may hold anything when the body starts.
-/
import proofs.«176289_j28192165331581_1_alg».proof.Proof.KiR1CaseB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last chunk: the feature block at `x0`, the weight block at `x1`, the output block at anything, the
    accumulator at `xs0`; its stores into the output block (`L2`) and into the accumulator (`LS0`) are the witnesses. -/
noncomputable def kernelRun1_C (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__linear_kernel i arg2 harg2 arg3 harg3 arg4 harg4 arg5 harg5) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KiR1Body.lean ====
/-
  Launch 1 of the idealized kernel: what the accumulator and the output block hold after every point, the launch's
  invariant, and the body's obligation at every point.

  After point n the accumulator holds what the point's case leaves in it — at a first chunk from nothing, otherwise over
  what point n − 1 left —, and at a last chunk the output block holds the copy of it. Between points the launch's
  invariant keeps the accumulator at exactly those contents, so the next point's body may read them.
-/
import proofs.«176289_j28192165331581_1_alg».proof.Proof.KiR1CaseC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- At a first or middle chunk the body stores nothing into the output block: a placeholder nothing consults. -/
def out1_idle_2 : Vec F S1024x256 .f32 := VO1_2.read (Elt F) VO1_2.junk

/-- A first chunk's stores into the accumulator cover it. -/
theorem scover1_A_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .bf16) (y : S1024x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x256.size (by sl_kernel_rfl) y

/-- What a first chunk leaves in the accumulator: its stores read back. -/
def sout1_A_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .bf16) : Vec F S1024x256 .f32 :=
  VS1_0.read (Elt F) (VS1_0.writes (Elt F) VS1_0.junk (kernelRun1_A c i arg2 harg2 arg3 harg3 arg4 harg4 arg5 harg5 hc0 hc1 x0 x1).2.1)

/-- A middle chunk's stores into the accumulator cover it. -/
theorem scover1_B_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .bf16) (xs0 : Vec F S1024x256 .f32) (y : S1024x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x256.size (by sl_kernel_rfl) y

/-- What a middle chunk leaves in the accumulator. -/
def sout1_B_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .bf16) (xs0 : Vec F S1024x256 .f32) : Vec F S1024x256 .f32 :=
  VS1_0.read (Elt F) (VS1_0.writes (Elt F) VS1_0.junk (kernelRun1_B c i arg2 harg2 arg3 harg3 arg4 harg4 arg5 harg5 hc0 hc1 x0 x1 xs0).2.1)

/-- A last chunk's store into the output block covers it. -/
theorem cover1_C_2 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) (y : S1024x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x256.size (by sl_kernel_rfl) y

/-- What a last chunk leaves in the output block. -/
def out1_C_2 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) : Vec F S1024x256 .f32 :=
  VO1_2.read (Elt F) (VO1_2.writes (Elt F) VO1_2.junk (kernelRun1_C c i arg2 harg2 arg3 harg3 arg4 harg4 arg5 harg5 hc0 hc1 x0 x1 xs0).1)

/-- A last chunk's stores into the accumulator cover it. -/
theorem scover1_C_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) (y : S1024x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x256.size (by sl_kernel_rfl) y

/-- What a last chunk leaves in the accumulator. -/
def sout1_C_0 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) : Vec F S1024x256 .f32 :=
  VS1_0.read (Elt F) (VS1_0.writes (Elt F) VS1_0.junk (kernelRun1_C c i arg2 harg2 arg3 harg3 arg4 harg4 arg5 harg5 hc0 hc1 x0 x1 xs0).2.1)

/-! ## What the output block and the accumulator hold after each point -/

/-- After the body at position `n`: (the output block, the accumulator). The case is the one `n % 10` selects; a
    middle or last chunk runs over what position `n - 1` left in the accumulator. -/
def outsAt1 (c : Dev nD) : (n : ℕ) → n < cfg1.N → Vec F S1024x256 .f32 × Vec F S1024x256 .f32
  | 0, hn => (out1_idle_2, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 10 = 0 then
      if h1 : (n + 1) % 10 = 9 then
        False.elim (by omega)
      else
        (out1_idle_2, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 10 = 9 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_idle_2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_idle_2, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_idle_2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The launch's invariant -/

/-- Before position `n`: at the launch's first point what the launch hands over (the accumulator at anything);
    afterwards the accumulator at what position `n - 1` left, the other scoped buffers and the generator register
    untouched. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The proof data -/

/-- The launch's proof data on core `c`: the arrays as the launch finds them; after the body at point `t` each
    input's buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; `t % 10` says which case the point is in; the
    invariant hands the body the accumulator at what the point before left (at anything at the launch's first point) and
    takes it back at this point's contents; the other scoped buffers, the generator register and the core's dues pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 40 := lt_of_lt_of_eq t.isLt (show cfg1.N = 40 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 10 = 0
  · have h1 : ¬t.val % 10 = 9 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 10 = 9
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 40 := N_1; omega), PhiA1_eq]
  iintro ⟨⟨HS0, Hoth⟩, Hg⟩
  isplitl [HS0 Hoth]
  · isplitl [HS0]
    · iexists _; iexact HS0
    iexact Hoth
  iexact Hg

end

end Cert.KernelIdeal.Hand

end
-- ==== Proof.KiRun.lean ====
/-
  The idealized kernel's whole run: the two launches as segments of @main between its stretches of host lines, and the
  run's end — every weakly fair execution terminates, the argument arrays end as launched, and the result buffer
  holds what the host lines after the launches compute from what the two launches left.

  Between two items of @main a core holds every unscoped buffer at named contents: the launch memory, then each host
  stretch applied, and after a launch its output array at what the launch's write-backs leave (the library's fold of
  the flushed blocks) with every other buffer as it was. Each launch is entered by splitting its three arrays out of
  those buffers and left by putting them back; the accumulator and the other scoped buffers go into the launch's
  invariant and come back out; nothing is owed at any point.
-/
import proofs.«176289_j28192165331581_1_alg».proof.Proof.KiR0Body
import proofs.«176289_j28192165331581_1_alg».proof.Proof.KiR1Body
import proofs.«176289_j28192165331581_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the launches -/

/-- What launch 0 is entered with, read at the TensorCore's references. -/
abbrev E3 : (c : Dev nD) → (b : Ref sig .tc) → Buf (Elt F) ((c : Thread nD τ).loc b) := fun c b => Gen.V3 m c b

/-- At launch 0's exit: its arrays at what the pipeline leaves, every other buffer as entered. -/
def X4 (c : Dev nD) : Valuation τ sig (Elt F) :=
  Pipeline.withArrays spec0 c (Gen.V3 m c) fun w => (dat0 (E3 m) c).arrAt w cfg0.N

/-- The same contents as the generated valuation spells them: only the output array changed. -/
abbrev Y4 (c : Dev nD) : Valuation τ sig (Elt F) := Function.update (Gen.V3 m c) main_v4 (X4 m c main_v4)

/-- What launch 1 is entered with. -/
abbrev E4 : (c : Dev nD) → (b : Ref sig .tc) → Buf (Elt F) ((c : Thread nD τ).loc b) := fun c b => Y4 m c b

/-- At launch 1's exit. -/
def X5 (c : Dev nD) : Valuation τ sig (Elt F) :=
  Pipeline.withArrays spec1 c (Y4 m c) fun w => (dat1 (E4 m) c).arrAt w cfg1.N

/-- What the two launches leave in their output arrays, as the unknowns of the generated valuations. -/
def outsOf : Gen.Outs (F := F) := fun j r c => if j = 4 then X4 m c r else X5 m c r

theorem V4_outsOf (c : Dev nD) : Gen.V4 m (outsOf m) c = Y4 m c := rfl
theorem outsOf_4 (c : Dev nD) : outsOf m 4 main_v4 c = (dat0 (E3 m) c).arrAt 2 cfg0.N := by
  show X4 m c main_v4 = _
  unfold X4; exact Pipeline.withArrays_arr spec0 launch0.win.arr_inj c _ _ 2
theorem outsOf_5 (c : Dev nD) : outsOf m 5 main_v5 c = (dat1 (E4 m) c).arrAt 2 cfg1.N := by
  show X5 m c main_v5 = _
  unfold X5; exact Pipeline.withArrays_arr spec1 launch1.win.arr_inj c _ _ 2

/-- At launch 0's exit each of its arrays holds what the pipeline leaves, in the generated valuation's spelling. -/
theorem hF0 (c : Dev nD) (w : Fin cfg0.W) : (dat0 (E3 m) c).arrAt w cfg0.N = Gen.V4 m (outsOf m) c (Pipeline.arrRef spec0 w) := by
  rw [V4_outsOf]
  match w with
  | ⟨0, _⟩ =>
    exact (((dat0 (E3 m) c).arrAt_in 0 rfl _).trans (A_eq0 (E3 m) c 0)).trans
      (Function.update_of_ne (StableHlo.devRef_ne_of_ne (by decide) : (Proc.devRef .tc main_arg0 : DevRef τ sig) ≠ Proc.devRef .tc main_v4) _ _).symm
  | ⟨1, _⟩ =>
    exact (((dat0 (E3 m) c).arrAt_in 1 rfl _).trans (A_eq0 (E3 m) c 1)).trans
      (Function.update_of_ne (StableHlo.devRef_ne_of_ne (by decide) : (Proc.devRef .tc main_v3 : DevRef τ sig) ≠ Proc.devRef .tc main_v4) _ _).symm
  | ⟨2, _⟩ =>
    show (dat0 (E3 m) c).arrAt 2 cfg0.N = Function.update (Gen.V3 m c) (Proc.devRef .tc main_v4) (X4 m c main_v4) (Proc.devRef .tc main_v4)
    rw [Function.update_self]
    unfold X4
    exact (Pipeline.withArrays_arr spec0 launch0.win.arr_inj c (Gen.V3 m c) (fun w => (dat0 (E3 m) c).arrAt w cfg0.N) 2).symm
theorem hrest0 (c : Dev nD) : ∀ b, b ∉ Finset.univ.image (Pipeline.arrRef spec0) → Gen.V4 m (outsOf m) c b = Gen.V3 m c b := by
  intro b hb
  rw [V4_outsOf]
  exact Function.update_of_ne (StableHlo.devRef_ne_of_ne (fun e => hb (Finset.mem_image.mpr ⟨2, Finset.mem_univ _, e.symm⟩))) _ _

theorem hF1 (c : Dev nD) (w : Fin cfg1.W) : (dat1 (E4 m) c).arrAt w cfg1.N = Gen.V5 m (outsOf m) c (Pipeline.arrRef spec1 w) := by
  match w with
  | ⟨0, _⟩ =>
    exact (((dat1 (E4 m) c).arrAt_in 0 rfl _).trans (A_eq1 (E4 m) c 0)).trans
      (Function.update_of_ne (StableHlo.devRef_ne_of_ne (by decide) : (Proc.devRef .tc main_arg1 : DevRef τ sig) ≠ Proc.devRef .tc main_v5) _ _).symm
  | ⟨1, _⟩ =>
    exact (((dat1 (E4 m) c).arrAt_in 1 rfl _).trans (A_eq1 (E4 m) c 1)).trans
      (Function.update_of_ne (StableHlo.devRef_ne_of_ne (by decide) : (Proc.devRef .tc main_v3 : DevRef τ sig) ≠ Proc.devRef .tc main_v5) _ _).symm
  | ⟨2, _⟩ =>
    show (dat1 (E4 m) c).arrAt 2 cfg1.N = Function.update (Gen.V4 m (outsOf m) c) (Proc.devRef .tc main_v5) (X5 m c main_v5) (Proc.devRef .tc main_v5)
    rw [Function.update_self]
    unfold X5
    exact (Pipeline.withArrays_arr spec1 launch1.win.arr_inj c (Y4 m c) (fun w => (dat1 (E4 m) c).arrAt w cfg1.N) 2).symm
theorem hrest1 (c : Dev nD) : ∀ b, b ∉ Finset.univ.image (Pipeline.arrRef spec1) → Gen.V5 m (outsOf m) c b = Gen.V4 m (outsOf m) c b := by
  intro b hb
  exact Function.update_of_ne (StableHlo.devRef_ne_of_ne (fun e => hb (Finset.mem_image.mpr ⟨2, Finset.mem_univ _, e.symm⟩))) _ _

/-! ## The proof data family and what rides beside the buffers -/

/-- Every pipeline's proof data, each at its launch's entry contents. -/
def pdats : (p : Fin 2) → (c : Dev nD) → Dat τ (Elt F) Unit ℕ (UR sig nD τ) ℕ (Pipeline.pin (pcfgs (F := F)) Gen.adm p) c
  | ⟨0, _⟩ => fun c => dat0 (E3 m) c
  | ⟨1, _⟩ => fun c => dat1 (E4 m) c

abbrev 𝒱₀ : Variants := Variants.none
abbrev L : GSem nD τ sig → Finset Unit := fun _ => ∅
abbrev lv : GSem nD τ sig → Unit → ℕ := fun _ _ => 0
/-- Beside the buffers, through every item: the generator register at some state and the core owing nothing. -/
abbrev R (c : Dev nD) : sProp 𝕄 := iprop((∃ r, prngReg c r) ∗ ∃ W, owes (c : Thread nD τ) (0 : CellTallies nD τ sig Unit) W)

/-! ## The launches as segments -/

set_option backward.isDefEq.respectTransparency.types false in
/-- Launch 0 as a segment: entered from every unscoped buffer at the contents after the host lines before it, left with
    its output array at what the write-backs leave. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E3 m) c)
    unfold Pipeline.ΦA
    iintro ⟨Hp, -, Hr⟩
    isplitl [Hr]; · iexact Hr
    iexact Hp
  hout c := by
    rw [Pipeline.ownSems0_none]
    refine BIBase.Entails.trans (hout0 (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (fun b => Gen.V4 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment, likewise. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (Gen.V4 m (outsOf m) c) ∗ R c)
  post c := iprop(StableHlo.held (c : Thread nD τ) (Pipeline.ucRefs τ sig) (Gen.V5 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V4 m (outsOf m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V4 m (outsOf m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E4 m) c)
    unfold Pipeline.ΦA
    iintro ⟨Hp, -, Hr⟩
    isplitl [Hr]; · iexact Hr
    iexact Hp
  hout c := by
    rw [Pipeline.ownSems0_none]
    refine BIBase.Entails.trans (hout1 (E4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V4 m (outsOf m) c b) (fun b => Gen.V5 m (outsOf m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- At the compiled mesh, from any memory with zero counters: every weakly fair execution of @main terminates, nothing
    faulting; the result buffer ends at what the last host lines compute from what the launches left (the generated
    valuation `Gen.V10` at the launches' outputs `outsOf`), and every argument array ends as launched. -/
theorem run_main : θ_run defs (onTc (τ := τ) (main (F := F))) ⟨m, fun _ => 0, ρ⟩ (fun r => ∀ c : Dev nD,
      r.2.mem ((c.tc : Thread nD τ).loc main_v22) = Gen.V10 m (outsOf m) c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ 𝒱₀ L lv m ρ main
    (Gen.segs m (outsOf m) 𝒱₀ L lv (fun _ => R) () (pdats m) (reg0 m) (reg1 m))
    (fun c Q => by
      rewrite [main_chain c, Pipeline.Seg.run_eq_chain,
        show (Gen.segs m (outsOf m) 𝒱₀ L lv (fun _ => R) () (pdats m) (reg0 m) (reg1 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V10 m (outsOf m) c) ∗ ∃ r, prngReg c r))
    (hch := fun c => ⟨.rfl, .rfl, .rfl, .rfl, .rfl, .rfl, .rfl, .rfl, .rfl, .rfl, ?_⟩)
    (hinit := ?_) (QY := fun c s => s.mem ((c.tc : Thread nD τ).loc main_v22) = Gen.V10 m (outsOf m) c main_v22 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the last item's exit: the buffers, the register, and the core owing nothing
    show (iprop(StableHlo.held (c : Thread nD τ) (Pipeline.ucRefs τ sig) (Gen.V10 m (outsOf m) c) ∗ R c) : sProp 𝕄)
      ⊢ iprop((StableHlo.held (c : Thread nD τ) (Pipeline.ucRefs τ sig) (Gen.V10 m (outsOf m) c) ∗ ∃ r, prngReg c r)
          ∗ ∃ W, owes (c : Thread nD τ) (0 : CellTallies nD τ sig Unit) W)
    iintro ⟨Hh, Hp, HO⟩
    isplitl [Hh Hp]
    · isplitl [Hh]; · iexact Hh
      iexact Hp
    iexact HO
  · -- the launch
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: each buffer read off the last valuation
    unfold StableHlo.held
    iintro ⟨⟨Hh, -⟩, HSI⟩
    ihave Hr := (pointsTo_read_all (Pipeline.ucRefs τ sig) (fun b => ((c : Thread nD τ).1, b)) (Gen.V10 m (outsOf m) c) s') $$ [Hh HSI]
    · isplitl [Hh] <;> iassumption
    icases Hr with ⟨%h, HSI⟩
    imodintro
    isplitr
    · ipureintro
      exact ⟨h (Proc.devRef .tc main_v22) (Finset.mem_filter.mpr ⟨StableHlo.devRef_mem_tcRefs main_v22, by decide⟩),
        (h (Proc.devRef .tc main_arg0) (Finset.mem_filter.mpr ⟨StableHlo.devRef_mem_tcRefs main_arg0, by decide⟩)).trans (Gen.V10_main_arg0 m (outsOf m) c),
        (h (Proc.devRef .tc main_arg1) (Finset.mem_filter.mpr ⟨StableHlo.devRef_mem_tcRefs main_arg1, by decide⟩)).trans (Gen.V10_main_arg1 m (outsOf m) c),
        (h (Proc.devRef .tc main_arg2) (Finset.mem_filter.mpr ⟨StableHlo.devRef_mem_tcRefs main_arg2, by decide⟩)).trans (Gen.V10_main_arg2 m (outsOf m) c),
        (h (Proc.devRef .tc main_arg3) (Finset.mem_filter.mpr ⟨StableHlo.devRef_mem_tcRefs main_arg3, by decide⟩)).trans (Gen.V10_main_arg3 m (outsOf m) c),
        (h (Proc.devRef .tc main_arg4) (Finset.mem_filter.mpr ⟨StableHlo.devRef_mem_tcRefs main_arg4, by decide⟩)).trans (Gen.V10_main_arg4 m (outsOf m) c),
        (h (Proc.devRef .tc main_arg5) (Finset.mem_filter.mpr ⟨StableHlo.devRef_mem_tcRefs main_arg5, by decide⟩)).trans (Gen.V10_main_arg5 m (outsOf m) c)⟩
    · iexact HSI

end Cert.KernelIdeal.Hand

end
-- ==== Proof.Tail.lean ====
/-
  What the idealized kernel's host lines compute, as named functions of their operands: the combined weight matrix the
  two launches share (the two score rows over the 128 accumulator rows, zero rows below, transposed), the two column
  slices taken of a launch's [4096, 256] result, and everything after the slices — the bias, the clamp to [0, 1], the
  output layer and the final sum — as ONE function `TailK` of the four slices, the bias and the output weights.
-/
import proofs.«176289_j28192165331581_1_alg».proof.KernelIdeal
import proofs.«176289_j28192165331581_1_alg».proof.Proof.Gen.KernelIdeal

noncomputable section

namespace Cert.KernelIdeal.Hand

open Cert.KernelIdeal Idealize.ShloMosaic Idealize.ShloMosaic.TcCoe Idealize.SL.Sem
open Facts₀ Facts

variable {F : FTy → Type} [FloatOps F]

/-- The combined weight matrix as the launches read it: w_psqt's 2 rows over w_acc's 128 rows, padded below to 256
    rows, transposed to [20480, 256] and cast to bf16. -/
def Wt (x2 : (⟨S2x20480, .f32⟩ : BufTy).Contents (Elt F)) (x3 : (⟨S128x20480, .f32⟩ : BufTy).Contents (Elt F)) :
    (⟨S20480x256, .bf16⟩ : BufTy).Contents (Elt F) :=
  truncf .bf16 (transpose S20480x256 [1, 0]
    (pad S256x20480 ![0, 0] ![126, 0] ![0, 0]
      (concatenate S130x20480 0 [⟨S2x20480, x2⟩, ⟨S128x20480, x3⟩] concatenates_S2x20480_S128x20480_S130x20480_d0)
      (sitofp .f32 (constantI S_ 32 0#32)) pads_S130x20480_S256x20480_01260_000 h_S_)
    transposes_S256x20480_S20480x256_1_0) bitsLt_bf16_f32

/-- Columns 0 and 1 of a launch's result: the two score columns. -/
def sl02 (o : (⟨S4096x256, .f32⟩ : BufTy).Contents (Elt F)) : (⟨S4096x2, .f32⟩ : BufTy).Contents (Elt F) :=
  extractStridedSlice S4096x2 ![0, 0] o slices_S4096x256_S4096x2_0_0

/-- Columns 2 to 129 of a launch's result: the 128 accumulator columns. -/
def sl2 (o : (⟨S4096x256, .f32⟩ : BufTy).Contents (Elt F)) : (⟨S4096x128, .f32⟩ : BufTy).Contents (Elt F) :=
  extractStridedSlice S4096x128 ![0, 2] o slices_S4096x256_S4096x128_0_2

/-- The bias row laid over every batch row. -/
def biasRows (b : (⟨S128, .f32⟩ : BufTy).Contents (Elt F)) : (⟨S4096x128, .f32⟩ : BufTy).Contents (Elt F) :=
  broadcastInDim S4096x128 ![0, 1] bcast_S1x128_S4096x128_0_1 (broadcastInDim S1x128 ![1] bcast_S128_S1x128_1 b)

/-- The clamp to [0, 1]: the minimum with one of the maximum with zero. -/
def clip01 (a : (⟨S4096x128, .f32⟩ : BufTy).Contents (Elt F)) : (⟨S4096x128, .f32⟩ : BufTy).Contents (Elt F) :=
  minimumf (broadcastInDim S4096x128 ![] bcast_S_S4096x128 (id (constant S_ .f32 0x3F800000#32)))
    (maximumf (broadcastInDim S4096x128 ![] bcast_S_S4096x128 (id (constant S_ .f32 0x00000000#32))) a)

/-- Everything after the slices: (p0 − p1) + (clip(a0 + b)·w5ᵀ − clip(a1 + b)·w5ᵀ). -/
def TailK (p0 p1 : (⟨S4096x2, .f32⟩ : BufTy).Contents (Elt F)) (a0 a1 : (⟨S4096x128, .f32⟩ : BufTy).Contents (Elt F))
    (b : (⟨S128, .f32⟩ : BufTy).Contents (Elt F)) (w5 : (⟨S2x128, .f32⟩ : BufTy).Contents (Elt F)) :
    (⟨S4096x2, .f32⟩ : BufTy).Contents (Elt F) :=
  addf (subf p0 p1)
    (subf (Host.dotGeneral dot_S4096x128_S2x128_S4096x2_1_1_0_0_n_n none (clip01 (addf a0 (biasRows b))) w5)
      (Host.dotGeneral dot_S4096x128_S2x128_S4096x2_1_1_0_0_n_n none (clip01 (addf a1 (biasRows b))) w5))

end Cert.KernelIdeal.Hand

end
-- ==== Proof.HostRead.lean ====
/-
  The idealized kernel's host lines read back: what the buffers hold where each launch is entered (the combined
  weight matrix `Wt` of the two weight arguments; the feature matrices as launched) and what the result buffer holds
  at the end (`TailK` of the column slices of the two launches' results, the bias and the output weights).
-/
import proofs.«176289_j28192165331581_1_alg».proof.Proof.Gen.KernelIdeal.Regions
import proofs.«176289_j28192165331581_1_alg».proof.Proof.Tail
import Idealize.ShloMosaic.Lib.StableHlo.Run

noncomputable section

namespace Cert.KernelIdeal.Hand

open Cert.KernelIdeal Idealize.ShloMosaic Idealize.ShloMosaic.TcCoe Idealize.SL.Sem

variable {F : FTy → Type} [FloatOps F]
variable (m : (ℓ : Loc nD τ sig) → Buf (Elt F) ℓ) (outs : Gen.Outs (F := F))

/-- Where launch 0 is entered the weight window's array holds the combined weight matrix of the two weight arguments. -/
theorem V3_main_v3 (c : Dev nD) :
    (Gen.V3 m c main_v3 : (⟨S20480x256, .bf16⟩ : BufTy).Contents (Elt F))
      = Wt (m ((c : Thread nD τ).loc main_arg2)) (m ((c : Thread nD τ).loc main_arg3)) := by
  dsimp only [Gen.V3, Gen.V2, Gen.V1, Gen.V0]
  after_results
  rfl

/-- Where launch 0 is entered the white features are as launched. -/
theorem V3_main_arg0 (c : Dev nD) : Gen.V3 m c main_arg0 = m ((c : Thread nD τ).loc main_arg0) :=
  (Gen.V3_of m c main_arg0 (by decide)).trans <| (Gen.V2_of m c main_arg0 (by decide)).trans <|
    (Gen.V1_of m c main_arg0 (by decide)).trans rfl

/-- Launch 0 leaves the weight matrix alone: launch 1 finds what launch 0 found. -/
theorem V4_main_v3 (c : Dev nD) : Gen.V4 m outs c main_v3 = Gen.V3 m c main_v3 :=
  Gen.V4_of m outs c main_v3 (by decide)

/-- Where launch 1 is entered the black features are as launched. -/
theorem V4_main_arg1 (c : Dev nD) : Gen.V4 m outs c main_arg1 = m ((c : Thread nD τ).loc main_arg1) :=
  (Gen.V4_of m outs c main_arg1 (by decide)).trans <| (Gen.V3_of m c main_arg1 (by decide)).trans <|
    (Gen.V2_of m c main_arg1 (by decide)).trans <| (Gen.V1_of m c main_arg1 (by decide)).trans rfl

/-! ### After the two launches: what the later host lines start from

The two launches only change their own result arrays, which hold the unknowns; the bias and the output weights are
still as launched. -/

theorem V5_main_v4 (c : Dev nD) : Gen.V5 m outs c main_v4 = outs 4 main_v4 c :=
  (Gen.V5_of m outs c main_v4 (by decide)).trans (Function.update_self _ _ _)

theorem V5_main_v5 (c : Dev nD) : Gen.V5 m outs c main_v5 = outs 5 main_v5 c :=
  Function.update_self _ _ _

theorem V5_main_arg4 (c : Dev nD) : Gen.V5 m outs c main_arg4 = m ((c : Thread nD τ).loc main_arg4) :=
  (Gen.V5_of m outs c main_arg4 (by decide)).trans <| (Gen.V4_of m outs c main_arg4 (by decide)).trans <|
    (Gen.V3_of m c main_arg4 (by decide)).trans <| (Gen.V2_of m c main_arg4 (by decide)).trans <|
    (Gen.V1_of m c main_arg4 (by decide)).trans rfl

theorem V5_main_arg5 (c : Dev nD) : Gen.V5 m outs c main_arg5 = m ((c : Thread nD τ).loc main_arg5) :=
  (Gen.V5_of m outs c main_arg5 (by decide)).trans <| (Gen.V4_of m outs c main_arg5 (by decide)).trans <|
    (Gen.V3_of m c main_arg5 (by decide)).trans <| (Gen.V2_of m c main_arg5 (by decide)).trans <|
    (Gen.V1_of m c main_arg5 (by decide)).trans rfl

/-! ### The slicing line: the four slices, the first sum with the bias, the clamp's two bounds -/

theorem V6_main_v6 (c : Dev nD) :
    (Gen.V6 m outs c main_v6 : (⟨S4096x2, .f32⟩ : BufTy).Contents (Elt F)) = sl02 (outs 4 main_v4 c) := by
  dsimp only [Gen.V6]
  after_results
  rw [V5_main_v4 m outs c]
  rfl

theorem V6_main_v7 (c : Dev nD) :
    (Gen.V6 m outs c main_v7 : (⟨S4096x2, .f32⟩ : BufTy).Contents (Elt F)) = sl02 (outs 5 main_v5 c) := by
  dsimp only [Gen.V6]
  after_results
  rw [V5_main_v5 m outs c]
  rfl

theorem V6_main_v9 (c : Dev nD) :
    (Gen.V6 m outs c main_v9 : (⟨S4096x128, .f32⟩ : BufTy).Contents (Elt F)) = sl2 (outs 5 main_v5 c) := by
  dsimp only [Gen.V6]
  after_results
  rw [V5_main_v5 m outs c]
  rfl

theorem V6_main_v12 (c : Dev nD) :
    (Gen.V6 m outs c main_v12 : (⟨S4096x128, .f32⟩ : BufTy).Contents (Elt F))
      = addf (sl2 (outs 4 main_v4 c)) (biasRows (m ((c : Thread nD τ).loc main_arg4))) := by
  dsimp only [Gen.V6]
  after_results
  rw [V5_main_v4 m outs c, V5_main_arg4 m outs c]
  rfl

theorem V6_main_cst (c : Dev nD) :
    (Gen.V6 m outs c main_cst : (⟨S_, .f32⟩ : BufTy).Contents (Elt F)) = constant S_ .f32 0x00000000#32 := by
  dsimp only [Gen.V6]
  after_results

theorem V6_main_cst_0 (c : Dev nD) :
    (Gen.V6 m outs c main_cst_0 : (⟨S_, .f32⟩ : BufTy).Contents (Elt F)) = constant S_ .f32 0x3F800000#32 := by
  dsimp only [Gen.V6]
  after_results

theorem V6_main_arg4 (c : Dev nD) : Gen.V6 m outs c main_arg4 = m ((c : Thread nD τ).loc main_arg4) :=
  (Gen.V6_of m outs c main_arg4 (by decide)).trans (V5_main_arg4 m outs c)

theorem V6_main_arg5 (c : Dev nD) : Gen.V6 m outs c main_arg5 = m ((c : Thread nD τ).loc main_arg5) :=
  (Gen.V6_of m outs c main_arg5 (by decide)).trans (V5_main_arg5 m outs c)

/-! ### The first clamp -/

theorem V7_main_v13 (c : Dev nD) :
    (Gen.V7 m outs c main_v13 : (⟨S4096x128, .f32⟩ : BufTy).Contents (Elt F))
      = clip01 (addf (sl2 (outs 4 main_v4 c)) (biasRows (m ((c : Thread nD τ).loc main_arg4)))) := by
  dsimp only [Gen.V7]
  generalize hW : Gen.V6 m outs c = W
  after_results
  subst hW
  rw [V6_main_cst m outs c, V6_main_cst_0 m outs c, V6_main_v12 m outs c]
  rfl

/-! ### The second sum with the bias, and the second clamp's two bounds -/

theorem V8_main_v16 (c : Dev nD) :
    (Gen.V8 m outs c main_v16 : (⟨S4096x128, .f32⟩ : BufTy).Contents (Elt F))
      = addf (sl2 (outs 5 main_v5 c)) (biasRows (m ((c : Thread nD τ).loc main_arg4))) := by
  dsimp only [Gen.V8]
  generalize hW : Gen.V7 m outs c = W
  after_results
  subst hW
  rw [Gen.V7_of m outs c main_v9 (by decide), V6_main_v9 m outs c,
    Gen.V7_of m outs c main_arg4 (by decide), V6_main_arg4 m outs c]
  rfl

theorem V8_main_cst_1 (c : Dev nD) :
    (Gen.V8 m outs c main_cst_1 : (⟨S_, .f32⟩ : BufTy).Contents (Elt F)) = constant S_ .f32 0x00000000#32 := by
  dsimp only [Gen.V8]
  after_results

theorem V8_main_cst_2 (c : Dev nD) :
    (Gen.V8 m outs c main_cst_2 : (⟨S_, .f32⟩ : BufTy).Contents (Elt F)) = constant S_ .f32 0x3F800000#32 := by
  dsimp only [Gen.V8]
  after_results

/-! ### The second clamp -/

theorem V9_main_v17 (c : Dev nD) :
    (Gen.V9 m outs c main_v17 : (⟨S4096x128, .f32⟩ : BufTy).Contents (Elt F))
      = clip01 (addf (sl2 (outs 5 main_v5 c)) (biasRows (m ((c : Thread nD τ).loc main_arg4)))) := by
  dsimp only [Gen.V9]
  generalize hW : Gen.V8 m outs c = W
  after_results
  subst hW
  rw [V8_main_cst_1 m outs c, V8_main_cst_2 m outs c, V8_main_v16 m outs c]
  rfl

/-! ### What the last line reads: the score slices, the two clamped sums, the output weights -/

theorem V9_main_v6 (c : Dev nD) :
    (Gen.V9 m outs c main_v6 : (⟨S4096x2, .f32⟩ : BufTy).Contents (Elt F)) = sl02 (outs 4 main_v4 c) :=
  (Gen.V9_of m outs c main_v6 (by decide)).trans <| (Gen.V8_of m outs c main_v6 (by decide)).trans <|
    (Gen.V7_of m outs c main_v6 (by decide)).trans (V6_main_v6 m outs c)

theorem V9_main_v7 (c : Dev nD) :
    (Gen.V9 m outs c main_v7 : (⟨S4096x2, .f32⟩ : BufTy).Contents (Elt F)) = sl02 (outs 5 main_v5 c) :=
  (Gen.V9_of m outs c main_v7 (by decide)).trans <| (Gen.V8_of m outs c main_v7 (by decide)).trans <|
    (Gen.V7_of m outs c main_v7 (by decide)).trans (V6_main_v7 m outs c)

theorem V9_main_v13 (c : Dev nD) :
    (Gen.V9 m outs c main_v13 : (⟨S4096x128, .f32⟩ : BufTy).Contents (Elt F))
      = clip01 (addf (sl2 (outs 4 main_v4 c)) (biasRows (m ((c : Thread nD τ).loc main_arg4)))) :=
  (Gen.V9_of m outs c main_v13 (by decide)).trans <| (Gen.V8_of m outs c main_v13 (by decide)).trans
    (V7_main_v13 m outs c)

theorem V9_main_arg5 (c : Dev nD) : Gen.V9 m outs c main_arg5 = m ((c : Thread nD τ).loc main_arg5) :=
  (Gen.V9_of m outs c main_arg5 (by decide)).trans <| (Gen.V8_of m outs c main_arg5 (by decide)).trans <|
    (Gen.V7_of m outs c main_arg5 (by decide)).trans (V6_main_arg5 m outs c)

/-- At the end the result buffer holds `TailK` of the slices of what the two launches left, the bias and the output
    weights. -/
theorem V10_main_v22 (c : Dev nD) :
    (Gen.V10 m outs c main_v22 : (⟨S4096x2, .f32⟩ : BufTy).Contents (Elt F))
      = TailK (sl02 (outs 4 main_v4 c)) (sl02 (outs 5 main_v5 c)) (sl2 (outs 4 main_v4 c)) (sl2 (outs 5 main_v5 c))
          (m ((c : Thread nD τ).loc main_arg4)) (m ((c : Thread nD τ).loc main_arg5)) := by
  dsimp only [Gen.V10]
  generalize hW : Gen.V9 m outs c = W
  after_results
  subst hW
  rw [V9_main_v6 m outs c, V9_main_v7 m outs c, V9_main_v13 m outs c, V9_main_v17 m outs c, V9_main_arg5 m outs c]
  rfl

end Cert.KernelIdeal.Hand

end
-- ==== Proof.Spec.lean ====
/-
  The mathematics both programs compute for one colour's accumulator, stated once over literal shapes:
  the product of the feature matrix [4096, 20480] with a combined weight matrix [20480, 256], entry by entry a sum
  over the 20480 features, and the regrouping of that sum into ten consecutive chunks of 2048 features.
-/
import Idealize.ShloMosaic.PureOps.Ideal
import Idealize.ShloMosaic.Lib.ValueIdx
import Mathlib.Algebra.BigOperators.Group.Finset.Defs
import Mathlib.Data.Fintype.BigOperators

noncomputable section

namespace Cert.Spec

open Idealize.ShloMosaic Idealize.ShloMosaic.ValueIdx

/-- Entry (b, n) of the product: the sum over every feature f of x[b, f] · w[f, n], on the extended reals. -/
def MatK (x : (⟨2, ![4096, 20480]⟩ : Shape).Idx → EReal) (w : (⟨2, ![20480, 256]⟩ : Shape).Idx → EReal) :
    (⟨2, ![4096, 256]⟩ : Shape).Idx → EReal :=
  fun i => ∑ f : Fin 20480, x (ix2 (n0 := 4096) (n1 := 20480) (i 0) f) * w (ix2 (n0 := 20480) (n1 := 256) f (i 1))

/-- The ten chunks of 2048 consecutive features laid end to end are the 20480 features: the pair (k, f) is feature
    2048·k + f, and feature j lies in chunk j / 2048 at place j % 2048. -/
def chunkEquiv : Fin 10 × Fin 2048 ≃ Fin 20480 where
  toFun p := ⟨2048 * p.1.val + p.2.val, by omega⟩
  invFun f := (⟨f.val / 2048, by omega⟩, ⟨f.val % 2048, by omega⟩)
  left_inv p := by
    refine Prod.ext (Fin.ext ?_) (Fin.ext ?_)
    · show (2048 * p.1.val + p.2.val) / 2048 = p.1.val
      omega
    · show (2048 * p.1.val + p.2.val) % 2048 = p.2.val
      omega
  right_inv f := by
    refine Fin.ext ?_
    show 2048 * (f.val / 2048) + f.val % 2048 = f.val
    omega

/-- A sum over 20480 features is the sum over ten chunks of the sums over the 2048 features of each chunk
    (addition on the extended reals is commutative and associative; nothing here needs finiteness). -/
theorem sum_chunks (g : Fin 20480 → EReal) :
    (∑ k : Fin 10, ∑ f : Fin 2048, g ⟨2048 * k.val + f.val, by omega⟩) = ∑ f : Fin 20480, g f := by
  -- the double sum is one sum over the pairs (chunk, place), and the pairs are the features
  rw [← Fintype.sum_prod_type' (fun (k : Fin 10) (f : Fin 2048) => g ⟨2048 * k.val + f.val, by omega⟩)]
  exact Fintype.sum_equiv chunkEquiv _ _ (fun _ => rfl)

end Cert.Spec

end
-- ==== Proof.RefBridge.lean ====
/-
  The reference's side of the value claim, and the bridge between the two programs' matrix products: the reference's
  result is the same function `TailK` of ITS four products (features times score weights, features times accumulator
  weights, for each colour); and a column slice of (features times the combined weight matrix) is the product of the
  features with the weights whose rows that slice holds.
-/
import proofs.«176289_j28192165331581_1_alg».proof.Proof.Gen.ReferenceIdeal.Read
import proofs.«176289_j28192165331581_1_alg».proof.Proof.Tail
import proofs.«176289_j28192165331581_1_alg».proof.Proof.Spec
import Idealize.ShloMosaic.PureOps.Ideal.Laws
import Idealize.ShloMosaic.Lib.Pipeline.Value
import Idealize.ShloMosaic.Lib.KernelVsHost
import Idealize.ShloMosaic.Lib.ValueIdx

noncomputable section

namespace Cert.KernelIdeal.Hand

open Cert.KernelIdeal Idealize.ShloMosaic Idealize.ShloMosaic.TcCoe Idealize.SL.Sem
open Facts₀ Facts

/-- The reference's product of the features with the two score rows. -/
abbrev Rdot2 (x : FVec Ideal S4096x20480 .f32) (x2 : FVec Ideal S2x20480 .f32) :
    FVec Ideal S4096x2 .f32 :=
  Host.dotGeneral (F := Ideal) (φ₁ := .f32) (φ₂ := .f32) Cert.ReferenceIdeal.dot_S4096x20480_S2x20480_S4096x2_1_1_0_0_n_n none x x2

/-- The reference's product of the features with the 128 accumulator rows. -/
abbrev Rdot128 (x : FVec Ideal S4096x20480 .f32) (x3 : FVec Ideal S128x20480 .f32) :
    FVec Ideal S4096x128 .f32 :=
  Host.dotGeneral (F := Ideal) (φ₁ := .f32) (φ₂ := .f32) Cert.ReferenceIdeal.dot_S4096x20480_S128x20480_S4096x128_1_1_0_0_n_n none x x3

/-- The combined weight matrix at feature f and one of the first two columns: the score row of that column. The
    narrowing to bf16 is the identity on ideal values; the transpose swaps the coordinates; row n < 130 of the padded
    matrix is row n of the stacked one, and rows 0 and 1 of the stack are the two score rows. -/
theorem Wt_apply_lo (x2 : FVec Ideal S2x20480 .f32) (x3 : FVec Ideal S128x20480 .f32) (f : Fin 20480) (n : Fin 2) :
    (Wt (F := Ideal) x2 x3 (ValueIdx.ix2 (n0 := 20480) (n1 := 256) f ⟨n.val, by omega⟩) : EReal)
      = x2 (ValueIdx.ix2 (n0 := 2) (n1 := 20480) n f) := by
  unfold Wt
  refine (ValueIdx.truncf_apply (φ := .f32) (ψ := .bf16) _ bitsLt_bf16_f32 _).trans ?_
  refine (transpose_apply [1, 0] _ transposes_S256x20480_S20480x256_1_0
    (ValueIdx.ix2 (n0 := 20480) (n1 := 256) f ⟨n.val, by omega⟩)
    (ValueIdx.ix2 (n0 := 256) (n1 := 20480) ⟨n.val, by omega⟩ f) (fun b => by
      match b with
      | ⟨0, _⟩ => rfl
      | ⟨1, _⟩ => rfl)).trans ?_
  refine (pad_apply_of_inside ![0, 0] ![126, 0] ![0, 0] _ _ pads_S130x20480_S256x20480_01260_000 h_S_
    (ValueIdx.ix2 (n0 := 256) (n1 := 20480) ⟨n.val, by omega⟩ f)
    (ValueIdx.ix2 (n0 := 130) (n1 := 20480) ⟨n.val, by omega⟩ f) (fun a => by
      match a with
      | ⟨0, _⟩ => show n.val = 0 + n.val * (0 + 1); omega
      | ⟨1, _⟩ => show f.val = 0 + f.val * (0 + 1); omega)).trans ?_
  exact concatenate_pair_apply_left (0 : Fin 2) x2 x3 concatenates_S2x20480_S128x20480_S130x20480_d0
    (ValueIdx.ix2 (n0 := 130) (n1 := 20480) ⟨n.val, by omega⟩ f) rfl
    (ValueIdx.ix2 (n0 := 2) (n1 := 20480) n f) (fun b => by
      match b with
      | ⟨0, _⟩ => rfl
      | ⟨1, _⟩ => rfl)

/-- The combined weight matrix at feature f and column n + 2 (n < 128): accumulator row n, which is row n + 2 of the
    stack of the two score rows over the 128 accumulator rows. -/
theorem Wt_apply_hi (x2 : FVec Ideal S2x20480 .f32) (x3 : FVec Ideal S128x20480 .f32) (f : Fin 20480) (n : Fin 128) :
    (Wt (F := Ideal) x2 x3 (ValueIdx.ix2 (n0 := 20480) (n1 := 256) f ⟨n.val + 2, by omega⟩) : EReal)
      = x3 (ValueIdx.ix2 (n0 := 128) (n1 := 20480) n f) := by
  unfold Wt
  refine (ValueIdx.truncf_apply (φ := .f32) (ψ := .bf16) _ bitsLt_bf16_f32 _).trans ?_
  refine (transpose_apply [1, 0] _ transposes_S256x20480_S20480x256_1_0
    (ValueIdx.ix2 (n0 := 20480) (n1 := 256) f ⟨n.val + 2, by omega⟩)
    (ValueIdx.ix2 (n0 := 256) (n1 := 20480) ⟨n.val + 2, by omega⟩ f) (fun b => by
      match b with
      | ⟨0, _⟩ => rfl
      | ⟨1, _⟩ => rfl)).trans ?_
  refine (pad_apply_of_inside ![0, 0] ![126, 0] ![0, 0] _ _ pads_S130x20480_S256x20480_01260_000 h_S_
    (ValueIdx.ix2 (n0 := 256) (n1 := 20480) ⟨n.val + 2, by omega⟩ f)
    (ValueIdx.ix2 (n0 := 130) (n1 := 20480) ⟨n.val + 2, by omega⟩ f) (fun a => by
      match a with
      | ⟨0, _⟩ => show n.val + 2 = 0 + (n.val + 2) * (0 + 1); omega
      | ⟨1, _⟩ => show f.val = 0 + f.val * (0 + 1); omega)).trans ?_
  exact concatenate_pair_apply_right (0 : Fin 2) x2 x3 concatenates_S2x20480_S128x20480_S130x20480_d0
    (ValueIdx.ix2 (n0 := 130) (n1 := 20480) ⟨n.val + 2, by omega⟩ f) rfl rfl
    (ValueIdx.ix2 (n0 := 128) (n1 := 20480) n f) (fun b hb => by
      match b with
      | ⟨0, _⟩ => exact absurd rfl hb
      | ⟨1, _⟩ => rfl) rfl

/-- The reference's result is `TailK` of its four products, the bias and the output weights. -/
theorem ref_tail (x0 x1 : FVec Ideal S4096x20480 .f32) (x2 : FVec Ideal S2x20480 .f32)
    (x3 : FVec Ideal S128x20480 .f32) (x4 : FVec Ideal S128 .f32)
    (x5 : FVec Ideal S2x128 .f32) :
    Cert.ReferenceIdeal.Read.val_main_v16 (F := Ideal) x0 x1 x2 x3 x4 x5
      = TailK (F := Ideal) (Rdot2 x0 x2) (Rdot2 x1 x2) (Rdot128 x0 x3) (Rdot128 x1 x3) x4 x5 := by
  -- stage by stage the reference is (p0 − p1) + (clip(a0 + b)·w5ᵀ − clip(a1 + b)·w5ᵀ) of its four products: both sides
  -- unfold to the same composition of the same operations over the same shapes
  rfl

/-- Columns 0 and 1 of features times the combined matrix: features times the two score rows. -/
theorem sl02_MatK (x : FVec Ideal S4096x20480 .f32) (x2 : FVec Ideal S2x20480 .f32)
    (x3 : FVec Ideal S128x20480 .f32) :
    sl02 (F := Ideal) (Cert.Spec.MatK x (Wt (F := Ideal) x2 x3)) = Rdot2 x x2 := by
  funext i
  obtain ⟨b, n, rfl⟩ : ∃ (b : Fin 4096) (n : Fin 2), i = ValueIdx.ix2 b n := ⟨i 0, i 1, ValueIdx.eq_ix2 i⟩
  -- the slice at (b, n) is the product at (b, n)
  unfold sl02
  refine (extractStridedSlice_apply (s := S4096x256) (t := S4096x2) ![0, 0] _ slices_S4096x256_S4096x2_0_0 (ValueIdx.ix2 b n)
    (ValueIdx.ix2 (n0 := 4096) (n1 := 256) b ⟨n.val, by omega⟩) (fun a => by
      match a with
      | ⟨0, _⟩ => show b.val = 0 + b.val; omega
      | ⟨1, _⟩ => show n.val = 0 + n.val; omega)).trans ?_
  -- the reference's product at (b, n) is the sum over the features of x[b, f] · x2[n, f]
  refine Eq.trans ?_ (Cert.ReferenceIdeal.Read.val_main_v0_apply x x2 (ValueIdx.ix2 b n)).symm
  unfold Cert.Spec.MatK
  refine Finset.sum_congr rfl fun f _ => ?_
  have el : ValueIdx.ix2 (n0 := 4096) (n1 := 20480) b f
      = Cert.ReferenceIdeal.Read.lidx_main_v0 (ValueIdx.ix2 b n) f := funext fun a => by
    match a with
    | ⟨0, _⟩ => rfl
    | ⟨1, _⟩ => rfl
  have er : ValueIdx.ix2 (n0 := 2) (n1 := 20480) n f
      = Cert.ReferenceIdeal.Read.ridx_main_v0 (ValueIdx.ix2 b n) f := funext fun a => by
    match a with
    | ⟨0, _⟩ => rfl
    | ⟨1, _⟩ => rfl
  rw [← el, ← er, ← Wt_apply_lo x2 x3 f n]

/-- Columns 2 to 129 of features times the combined matrix: features times the 128 accumulator rows. -/
theorem sl2_MatK (x : FVec Ideal S4096x20480 .f32) (x2 : FVec Ideal S2x20480 .f32)
    (x3 : FVec Ideal S128x20480 .f32) :
    sl2 (F := Ideal) (Cert.Spec.MatK x (Wt (F := Ideal) x2 x3)) = Rdot128 x x3 := by
  funext i
  obtain ⟨b, n, rfl⟩ : ∃ (b : Fin 4096) (n : Fin 128), i = ValueIdx.ix2 b n := ⟨i 0, i 1, ValueIdx.eq_ix2 i⟩
  -- the slice at (b, n) is the product at (b, n + 2)
  unfold sl2
  refine (extractStridedSlice_apply (s := S4096x256) (t := S4096x128) ![0, 2] _ slices_S4096x256_S4096x128_0_2 (ValueIdx.ix2 b n)
    (ValueIdx.ix2 (n0 := 4096) (n1 := 256) b ⟨n.val + 2, by omega⟩) (fun a => by
      match a with
      | ⟨0, _⟩ => show b.val = 0 + b.val; omega
      | ⟨1, _⟩ => show n.val + 2 = 2 + n.val; omega)).trans ?_
  -- the reference's product at (b, n) is the sum over the features of x[b, f] · x3[n, f]
  refine Eq.trans ?_ (Cert.ReferenceIdeal.Read.val_main_v3_apply x x3 (ValueIdx.ix2 b n)).symm
  unfold Cert.Spec.MatK
  refine Finset.sum_congr rfl fun f _ => ?_
  have el : ValueIdx.ix2 (n0 := 4096) (n1 := 20480) b f
      = Cert.ReferenceIdeal.Read.lidx_main_v3 (ValueIdx.ix2 b n) f := funext fun a => by
    match a with
    | ⟨0, _⟩ => rfl
    | ⟨1, _⟩ => rfl
  have er : ValueIdx.ix2 (n0 := 128) (n1 := 20480) n f
      = Cert.ReferenceIdeal.Read.ridx_main_v3 (ValueIdx.ix2 b n) f := funext fun a => by
    match a with
    | ⟨0, _⟩ => rfl
    | ⟨1, _⟩ => rfl
  rw [← el, ← er, ← Wt_apply_hi x2 x3 f n]

end Cert.KernelIdeal.Hand

end
-- ==== Proof.KiR0Pieces.lean ====
/-
  Launch 0 of the idealized kernel: what each case's stores leave, as the body's arithmetic of what it loaded, and where
  a window's block sits in its array.

  Every store of the body covers its whole buffer, so what a buffer holds after the body is the last store's value: the
  accumulator ends at (its contents at the point's start, or zero at a first chunk) plus the chunk's product, and at a
  last chunk the output block ends at the same value. Point t = 10·i + k stages rows 1024·i … of the features at columns
  2048·k …, and rows 2048·k … of the combined weights.
-/
import proofs.«176289_j28192165331581_1_alg».proof.Proof.KiR0Body
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores hold, as the body's arithmetic of the blocks -/

theorem hz0 : (![0, 0] : Fin 2 → Nat) = fun _ => 0 := funext fun a => by fin_cases a <;> rfl

/-- A first chunk leaves in the accumulator the zero block plus the chunk's product: the reset is read back by the
    update, which covers it. -/
theorem piece0_A (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i)
    (x0 : Vec F S1024x2048 .f32) (x1 : Vec F S2048x256 .bf16) :
    sout0_A_0 c i arg2 harg2 arg3 harg3 arg4 harg4 arg5 harg5 hc0 hc1 x0 x1 = k0_pay2 x0 (k0_pay1 (F := F)) x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x256) hz0]
  simp only [View.readAt_eq_ld, harg2.read_unread, harg3.read_unread, View.ld_unit_zero (S := S1024x2048) hz0, View.ld_unit_zero (S := S2048x256) hz0, View.readCov_unit_zero (S := S1024x256) _ hz0]

/-- A middle chunk leaves in the accumulator what it held plus the chunk's product. -/
theorem piece0_B (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i)
    (x0 : Vec F S1024x2048 .f32) (x1 : Vec F S2048x256 .bf16) (xs0 : Vec F S1024x256 .f32) :
    sout0_B_0 c i arg2 harg2 arg3 harg3 arg4 harg4 arg5 harg5 hc0 hc1 x0 x1 xs0 = k0_pay2 x0 xs0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz0]
  simp only [View.readAt_eq_ld, harg2.read_unread, harg3.read_unread, harg5.read_unread, View.ld_unit_zero (S := S1024x2048) hz0, View.ld_unit_zero (S := S2048x256) hz0, View.ld_unit_zero (S := S1024x256) hz0]

/-- A last chunk leaves in the accumulator what it held plus the chunk's product, -/
theorem piece0_C (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) :
    sout0_C_0 c i arg2 harg2 arg3 harg3 arg4 harg4 arg5 harg5 hc0 hc1 x0 x1 xs0 = k0_pay2 x0 xs0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz0]
  simp only [View.readAt_eq_ld, harg2.read_unread, harg3.read_unread, harg5.read_unread, View.ld_unit_zero (S := S1024x2048) hz0, View.ld_unit_zero (S := S2048x256) hz0, View.ld_unit_zero (S := S1024x256) hz0]

/-- and in the output block the copy of that. -/
theorem piece0_C_out (c : Dev nD) (i : grid0.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i)
    (x0 : Vec F S1024x2048 .f32) (x1 : Vec F S2048x256 .bf16) (xs0 : Vec F S1024x256 .f32) :
    out0_C_2 c i arg2 harg2 arg3 harg3 arg4 harg4 arg5 harg5 hc0 hc1 x0 x1 xs0 = k0_pay2 x0 xs0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz0]
  simp only [View.readAt_eq_ld, harg2.read_unread, harg3.read_unread, harg5.read_unread, View.ld_unit_zero (S := S1024x2048) hz0, View.ld_unit_zero (S := S2048x256) hz0, View.ld_unit_zero (S := S1024x256) hz0, View.readCov_unit_zero (S := S1024x256) _ hz0]

/-! ## Where a window's block sits in its array -/

/-- The feature window's block index at point t: (t / 10, t % 10). -/
theorem idx0_x : ∀ t : Fin cfg0.N, win0_0.index t 0 = t.val / 10 ∧ win0_0.index t 1 = t.val % 10 :=
  (by decide +kernel : ∀ t : Fin grid0.N, win0_0.index t 0 = t.val / 10 ∧ win0_0.index t 1 = t.val % 10)

/-- The weight window's block index at point t: (t % 10, 0). -/
theorem idx0_w : ∀ t : Fin cfg0.N, win0_1.index t 0 = t.val % 10 ∧ win0_1.index t 1 = 0 :=
  (by decide +kernel : ∀ t : Fin grid0.N, win0_1.index t 0 = t.val % 10 ∧ win0_1.index t 1 = 0)

section
variable (V : (c : Dev nD) → (b : Ref sig .tc) → Buf (Elt F) ((c : Thread nD τ).loc b))

/-- Entry (r, f) of the feature block at point t is entry (1024·(t/10) + r, 2048·(t%10) + f) of the feature array. -/
theorem blockRow0_x (c : Dev nD) (t : Fin cfg0.N) (r : Fin 1024) (f : Fin 2048) :
    (iblk0 V c 0 t : Vec F S1024x2048 .f32) (ValueIdx.ix2 r f)
      = (V c main_arg0 : (⟨S4096x20480, .f32⟩ : BufTy).Contents (Elt F))
          (ValueIdx.ix2 (n0 := 4096) (n1 := 20480)
            ⟨1024 * (t.val / 10) + r.val, by have := t.isLt; have hN : cfg0.N = 40 := N_0; have := r.isLt; omega⟩
            ⟨2048 * (t.val % 10) + f.val, by have := f.isLt; omega⟩) := by
  unfold iblk0
  rw [View.read_apply]
  show V c main_arg0 _ = V c main_arg0 _
  refine congrArg (V c main_arg0) ?_
  funext a
  apply Fin.ext
  match a with
  | ⟨0, _⟩ => show win0_0.index t 0 * 1024 + 1 * r.val = 1024 * (t.val / 10) + r.val; rw [(idx0_x t).1]; omega
  | ⟨1, _⟩ => show win0_0.index t 1 * 2048 + 1 * f.val = 2048 * (t.val % 10) + f.val; rw [(idx0_x t).2]; omega

/-- Entry (f, n) of the weight block at point t is entry (2048·(t%10) + f, n) of the combined weight matrix. -/
theorem blockRow0_w (c : Dev nD) (t : Fin cfg0.N) (f : Fin 2048) (n : Fin 256) :
    (iblk0 V c 1 t : Vec F S2048x256 .bf16) (ValueIdx.ix2 f n)
      = (V c main_v3 : (⟨S20480x256, .bf16⟩ : BufTy).Contents (Elt F))
          (ValueIdx.ix2 (n0 := 20480) (n1 := 256) ⟨2048 * (t.val % 10) + f.val, by have := f.isLt; omega⟩ n) := by
  unfold iblk0
  rw [View.read_apply]
  show V c main_v3 _ = V c main_v3 _
  refine congrArg (V c main_v3) ?_
  funext a
  apply Fin.ext
  match a with
  | ⟨0, _⟩ => show win0_1.index t 0 * 2048 + 1 * f.val = 2048 * (t.val % 10) + f.val; rw [(idx0_w t).1]; omega
  | ⟨1, _⟩ => show win0_1.index t 1 * 256 + 1 * n.val = n.val; rw [(idx0_w t).2]; omega
end

end Cert.KernelIdeal.Hand

end
-- ==== Proof.KiR0Value.lean ====
/-
  Launch 0 of the idealized kernel at the exact reals: the output array after the launch is the product of
  the white features with the combined weight matrix.

  The accumulator after point t = 10·i + k holds, entry by entry, the sum over the chunks 0 … k of row block i's
  partial products (zero, then one `tpu.matmul` per chunk added on); at k = 9 the output block receives it, and the
  ten chunk sums are one sum over all 20480 features. The four flushed row blocks tile the output array.
-/
import proofs.«176289_j28192165331581_1_alg».proof.Proof.KiR0Body
import proofs.«176289_j28192165331581_1_alg».proof.Proof.KiR0Pieces
import proofs.«176289_j28192165331581_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's arithmetic at an entry, on the extended reals -/

open Idealize.ShloMosaic.ValueIdx

/-- The four coordinate facts of the body's product: entry (r, n) of the product reads row r of the left block and
    column n of the right one, along the one contracted axis. -/
theorem dotL0_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem dotL0_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem dotR0_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem dotR0_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The reset's block is zero everywhere. -/
theorem pay0_reset_apply (j : S1024x256.Idx) : k0_pay1 (F := Ideal) j = 0 := by
  unfold k0_pay1
  simp only [shapeCast_self]
  exact Ideal.ofBits_zero_f32

/-- The update at entry (r, n): what the accumulator held there plus the sum over the chunk's 2048 features of
    (feature block at (r, f)) · (weight block at (f, n)); the narrowing of the features to bf16 is the identity on the
    extended reals. -/
theorem pay0_update_apply (x : Vec Ideal S1024x2048 .f32) (acc : Vec Ideal S1024x256 .f32) (w : Vec Ideal S2048x256 .bf16)
    (r : Fin 1024) (n : Fin 256) :
    k0_pay2 (F := Ideal) x acc w (ix2 r n) = acc (ix2 r n) + ∑ f : Fin 2048, x (ix2 r f) * w (ix2 f n) := by
  unfold k0_pay2
  simp only [shapeCast_self]
  show acc (ix2 r n) + FloatOps.matmul dot_S1024x2048_S2048x256_S1024x256_1_0_0_1_n_n none x w (constant (F := Ideal) S1024x256 .f32 0x00000000#32) (ix2 r n) = _
  refine congrArg (acc (ix2 r n) + ·) ?_
  refine (Ideal.matmul_constant_zero_apply (φ₁ := .f32) (φ₂ := .bf16) dot_S1024x2048_S2048x256_S1024x256_1_0_0_1_n_n none x w (ix2 r n)).trans ?_
  rw [← Equiv.sum_comp (contrEquiv1 dot_S1024x2048_S2048x256_S1024x256_1_0_0_1_n_n 2048 rfl rfl).symm]
  refine Finset.sum_congr rfl fun f _ => ?_
  have hf := contrEquiv1_symm_val dot_S1024x2048_S2048x256_S1024x256_1_0_0_1_n_n 2048 rfl rfl f
  have el : dot_S1024x2048_S2048x256_S1024x256_1_0_0_1_n_n.lhsIdx (ix2 r n) ((contrEquiv1 dot_S1024x2048_S2048x256_S1024x256_1_0_0_1_n_n 2048 rfl rfl).symm f) = ix2 r f := funext fun a => Fin.ext (by
    match a with
    | ⟨0, _⟩ => exact dotL0_0 _ _
    | ⟨1, _⟩ => exact (dotL0_1 _ _).trans hf)
  have er : dot_S1024x2048_S2048x256_S1024x256_1_0_0_1_n_n.rhsIdx (ix2 r n) ((contrEquiv1 dot_S1024x2048_S2048x256_S1024x256_1_0_0_1_n_n 2048 rfl rfl).symm f) = ix2 f n := funext fun a => Fin.ext (by
    match a with
    | ⟨0, _⟩ => exact (dotR0_0 _ _).trans hf
    | ⟨1, _⟩ => exact dotR0_1 _ _)
  rw [el, er]

/-! ## Sums over the chunks seen so far -/

/-- Only chunk 0 has been seen. -/
theorem sum0_le_first (T : Fin 10 → EReal) (m : ℕ) (hm : m = 0) (h : m < 10) :
    (∑ k : Fin 10, if k.val ≤ m then T k else 0) = T ⟨m, h⟩ := by
  subst hm
  have e : ∀ k : Fin 10, (if k.val ≤ 0 then T k else 0) = if k = ⟨0, h⟩ then T k else 0 := fun k => by
    by_cases hk : k.val ≤ 0
    · rw [if_pos hk, if_pos (Fin.ext (Nat.le_zero.mp hk))]
    · rw [if_neg hk, if_neg (fun e => hk (by rw [e]))]
  rw [Finset.sum_congr rfl fun k _ => e k, Finset.sum_ite_eq' Finset.univ (⟨0, h⟩ : Fin 10) T, if_pos (Finset.mem_univ _)]

/-- One more chunk: the sum over the chunks up to m' = m + 1 is the sum up to m plus chunk m'. -/
theorem sum0_le_next (T : Fin 10 → EReal) (m m' : ℕ) (hm : m' = m + 1) (h : m' < 10) :
    (∑ k : Fin 10, if k.val ≤ m' then T k else 0) = (∑ k : Fin 10, if k.val ≤ m then T k else 0) + T ⟨m', h⟩ := by
  subst hm
  have e : ∀ k : Fin 10, (if k.val ≤ m + 1 then T k else 0) = (if k.val ≤ m then T k else 0) + (if k = ⟨m + 1, h⟩ then T k else 0) := fun k => by
    by_cases h1 : k.val ≤ m
    · have hne : k ≠ ⟨m + 1, h⟩ := fun e => by rw [e] at h1; exact absurd h1 (by show ¬ m + 1 ≤ m; omega)
      rw [if_pos h1, if_pos (by omega), if_neg hne, add_zero]
    · by_cases h2 : k.val = m + 1
      · rw [if_neg h1, if_pos (by omega), if_pos (Fin.ext h2), zero_add]
      · have hne : k ≠ ⟨m + 1, h⟩ := fun e => h2 (congrArg Fin.val e)
        rw [if_neg h1, if_neg (by omega), if_neg hne, add_zero]
  rw [Finset.sum_congr rfl fun k _ => e k, Finset.sum_add_distrib, Finset.sum_ite_eq' Finset.univ (⟨m + 1, h⟩ : Fin 10) T, if_pos (Finset.mem_univ _)]

/-- All ten chunks have been seen. -/
theorem sum0_le_all (T : Fin 10 → EReal) (m : ℕ) (hm : m = 9) :
    (∑ k : Fin 10, if k.val ≤ m then T k else 0) = ∑ k : Fin 10, T k :=
  Finset.sum_congr rfl fun k _ => if_pos (by have := k.isLt; omega)

/-! ## The accumulator after every point -/

/-- Chunk k of entry (b, n) of the product: the 2048 features 2048·k … 2048·k + 2047. -/
def chunk0_term (X : (⟨2, ![4096, 20480]⟩ : Shape).Idx → EReal) (W : (⟨2, ![20480, 256]⟩ : Shape).Idx → EReal)
    (b : Fin 4096) (n : Fin 256) (k : Fin 10) : EReal :=
  ∑ f : Fin 2048, X (ix2 b ⟨2048 * k.val + f.val, by have := k.isLt; have := f.isLt; omega⟩) * W (ix2 ⟨2048 * k.val + f.val, by have := k.isLt; have := f.isLt; omega⟩ n)

/-- The update with blocks that are chunk k of row b of the arrays adds chunk k of entry (b, n). -/
theorem pay0_chunk (x : Vec Ideal S1024x2048 .f32) (acc : Vec Ideal S1024x256 .f32) (w : Vec Ideal S2048x256 .bf16)
    (X : (⟨2, ![4096, 20480]⟩ : Shape).Idx → EReal) (W : (⟨2, ![20480, 256]⟩ : Shape).Idx → EReal)
    (r : Fin 1024) (n : Fin 256) (b : Fin 4096) (k : Fin 10)
    (hx : ∀ f : Fin 2048, x (ix2 r f) = X (ix2 b ⟨2048 * k.val + f.val, by have := k.isLt; have := f.isLt; omega⟩))
    (hw : ∀ f : Fin 2048, w (ix2 f n) = W (ix2 ⟨2048 * k.val + f.val, by have := k.isLt; have := f.isLt; omega⟩ n)) :
    k0_pay2 (F := Ideal) x acc w (ix2 r n) = acc (ix2 r n) + chunk0_term X W b n k := by
  rw [pay0_update_apply]
  unfold chunk0_term
  exact congrArg (acc (ix2 r n) + ·) (Finset.sum_congr rfl fun f _ => by rw [hx f, hw f])

section
variable (V : (c : Dev nD) → (b : Ref sig .tc) → Buf (Elt Ideal) ((c : Thread nD τ).loc b))

/-- The point's feature block and weight block, and the two arrays the launch reads. -/
abbrev blk0_x (c : Dev nD) (t : Fin cfg0.N) : Vec Ideal S1024x2048 .f32 := iblk0 V c 0 t
abbrev blk0_w (c : Dev nD) (t : Fin cfg0.N) : Vec Ideal S2048x256 .bf16 := iblk0 V c 1 t
abbrev arr0_x (c : Dev nD) : (⟨2, ![4096, 20480]⟩ : Shape).Idx → EReal := V c main_arg0
abbrev arr0_w (c : Dev nD) : (⟨2, ![20480, 256]⟩ : Shape).Idx → EReal := V c main_v3

/-- The feature block at point t, row r, is chunk t % 10 of row b = 1024·(t / 10) + r of the feature array. -/
theorem blk0_x_row (c : Dev nD) (t : Fin cfg0.N) (r : Fin 1024) (b : Fin 4096) (k : Fin 10)
    (hb : b.val = 1024 * (t.val / 10) + r.val) (hk : k.val = t.val % 10) (f : Fin 2048) :
    blk0_x V c t (ix2 r f) = arr0_x V c (ix2 b ⟨2048 * k.val + f.val, by have := k.isLt; have := f.isLt; omega⟩) := by
  refine (blockRow0_x V c t r f).trans ?_
  show arr0_x V c _ = arr0_x V c _
  refine congrArg (arr0_x V c) ?_
  funext a
  match a with
  | ⟨0, _⟩ => exact Fin.ext hb.symm
  | ⟨1, _⟩ => exact Fin.ext (by show 2048 * (t.val % 10) + f.val = 2048 * k.val + f.val; rw [hk])

/-- The weight block at point t is chunk t % 10 of the rows of the weight array. -/
theorem blk0_w_row (c : Dev nD) (t : Fin cfg0.N) (n : Fin 256) (k : Fin 10) (hk : k.val = t.val % 10) (f : Fin 2048) :
    blk0_w V c t (ix2 f n) = arr0_w V c (ix2 ⟨2048 * k.val + f.val, by have := k.isLt; have := f.isLt; omega⟩ n) := by
  refine (blockRow0_w V c t f n).trans ?_
  show arr0_w V c _ = arr0_w V c _
  refine congrArg (arr0_w V c) ?_
  funext a
  match a with
  | ⟨0, _⟩ => exact Fin.ext (by show 2048 * (t.val % 10) + f.val = 2048 * k.val + f.val; rw [hk])
  | ⟨1, _⟩ => rfl

/-- At a first chunk the accumulator is reset and receives chunk 0. -/
theorem acc0_first (c : Dev nD) (t : Fin cfg0.N) (h0 : t.val % 10 = 0) (r : Fin 1024) (q : Fin 256) (b : Fin 4096)
    (hb : b.val = 1024 * (t.val / 10) + r.val) :
    (outsAt0 V c t.val t.isLt).2 (ix2 r q) = ∑ k : Fin 10, if k.val ≤ t.val % 10 then chunk0_term (arr0_x V c) (arr0_w V c) b q k else 0 := by
  have h9 : ¬t.val % 10 = 9 := by omega
  rw [outsAt0_A V c t h0 h9]
  dsimp only
  refine (congrFun (piece0_A (F := Ideal) c (grid0.coords t) (ms0_0 t) (hs0_0 t) (ms0_1 t) (hs0_1 t) (ms0_2 t) (hs0_2 t) scM0_0 (Memref.isWhole_whole _) ((hcond0_0 t).mpr h0) (fun h => h9 ((hcond0_1 t).mp h)) (blk0_x V c t) (blk0_w V c t)) (ix2 r q)).trans ?_
  refine (pay0_chunk (blk0_x V c t) (k0_pay1 (F := Ideal)) (blk0_w V c t) (arr0_x V c) (arr0_w V c) r q b ⟨t.val % 10, Nat.mod_lt _ (by decide)⟩
    (blk0_x_row V c t r b _ hb rfl) (blk0_w_row V c t q _ rfl)).trans ?_
  rw [pay0_reset_apply, zero_add]
  exact (sum0_le_first _ (t.val % 10) h0 _).symm

/-- After point n = 10·i + k the accumulator holds, at entry (r, q), the chunks 0 … k of entry (1024·i + r, q) of the
    product: zero and chunk 0 at a first chunk, one more chunk at every later one. -/
theorem acc0_inv (c : Dev nD) : ∀ (n : ℕ) (hn : n < cfg0.N) (r : Fin 1024) (q : Fin 256) (b : Fin 4096),
    b.val = 1024 * (n / 10) + r.val →
    (outsAt0 V c n hn).2 (ix2 r q) = ∑ k : Fin 10, if k.val ≤ n % 10 then chunk0_term (arr0_x V c) (arr0_w V c) b q k else 0 := by
  intro n
  induction n with
  | zero =>
    intro hn r q b hb
    exact acc0_first V c ⟨0, hn⟩ (Nat.zero_mod _) r q b hb
  | succ n ih =>
    intro hn r q b hb
    have hN : cfg0.N = 40 := N_0
    by_cases h0 : (n + 1) % 10 = 0
    · exact acc0_first V c ⟨n + 1, hn⟩ h0 r q b hb
    · by_cases h9 : (n + 1) % 10 = 9
      · -- a last chunk
        have e := outsAt0_C V c ⟨n + 1, hn⟩ h0 h9
        rw [e]
        dsimp only
        refine (congrFun (piece0_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h9) (blk0_x V c ⟨n + 1, hn⟩) (blk0_w V c ⟨n + 1, hn⟩) (outsAt0 V c n (Nat.lt_of_succ_lt hn)).2) (ix2 r q)).trans ?_
        refine (pay0_chunk (blk0_x V c ⟨n + 1, hn⟩) (outsAt0 V c n (Nat.lt_of_succ_lt hn)).2 (blk0_w V c ⟨n + 1, hn⟩) (arr0_x V c) (arr0_w V c) r q b ⟨(n + 1) % 10, Nat.mod_lt _ (by decide)⟩
          (blk0_x_row V c ⟨n + 1, hn⟩ r b _ hb rfl) (blk0_w_row V c ⟨n + 1, hn⟩ q _ rfl)).trans ?_
        rw [ih (Nat.lt_of_succ_lt hn) r q b (by omega)]
        exact (sum0_le_next _ (n % 10) ((n + 1) % 10) (by omega) _).symm
      · -- a middle chunk
        have e := outsAt0_B V c ⟨n + 1, hn⟩ h0 h9
        rw [e]
        dsimp only
        refine (congrFun (piece0_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h9 ((hcond0_1 ⟨n + 1, hn⟩).mp h)) (blk0_x V c ⟨n + 1, hn⟩) (blk0_w V c ⟨n + 1, hn⟩) (outsAt0 V c n (Nat.lt_of_succ_lt hn)).2) (ix2 r q)).trans ?_
        refine (pay0_chunk (blk0_x V c ⟨n + 1, hn⟩) (outsAt0 V c n (Nat.lt_of_succ_lt hn)).2 (blk0_w V c ⟨n + 1, hn⟩) (arr0_x V c) (arr0_w V c) r q b ⟨(n + 1) % 10, Nat.mod_lt _ (by decide)⟩
          (blk0_x_row V c ⟨n + 1, hn⟩ r b _ hb rfl) (blk0_w_row V c ⟨n + 1, hn⟩ q _ rfl)).trans ?_
        rw [ih (Nat.lt_of_succ_lt hn) r q b (by omega)]
        exact (sum0_le_next _ (n % 10) ((n + 1) % 10) (by omega) _).symm
end

section
variable (V : (c : Dev nD) → (b : Ref sig .tc) → Buf (Elt Ideal) ((c : Thread nD τ).loc b))

/-! ## What a last chunk copies into the output block, and the array after the launch -/

/-- At a last chunk the output block receives all ten chunks of its entries: entry (r, q) of the block is entry
    (1024·(t / 10) + r, q) of the product. -/
theorem out0_last (c : Dev nD) (t : Fin cfg0.N) (h9 : t.val % 10 = 9) (r : Fin 1024) (q : Fin 256) (b : Fin 4096)
    (hb : b.val = 1024 * (t.val / 10) + r.val) :
    (outsAt0 V c t.val t.isLt).1 (ix2 r q) = Cert.Spec.MatK (arr0_x V c) (arr0_w V c) (ix2 b q) := by
  have h0 : ¬t.val % 10 = 0 := by omega
  have hN : cfg0.N = 40 := N_0
  have hlt := t.isLt
  rw [outsAt0_C V c t h0 h9]
  dsimp only
  refine (congrFun (piece0_C_out (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h9) (blk0_x V c t) (blk0_w V c t) (outsAt0 V c (t.val - 1) (Nat.lt_of_le_of_lt (Nat.sub_le _ _) t.isLt)).2) (ix2 r q)).trans ?_
  refine (pay0_chunk (blk0_x V c t) (outsAt0 V c (t.val - 1) (Nat.lt_of_le_of_lt (Nat.sub_le _ _) t.isLt)).2 (blk0_w V c t) (arr0_x V c) (arr0_w V c) r q b ⟨t.val % 10, Nat.mod_lt _ (by decide)⟩
    (blk0_x_row V c t r b _ hb rfl) (blk0_w_row V c t q _ rfl)).trans ?_
  rw [acc0_inv V c (t.val - 1) (Nat.lt_of_le_of_lt (Nat.sub_le _ _) t.isLt) r q b (by omega)]
  refine (sum0_le_next _ ((t.val - 1) % 10) (t.val % 10) (by omega) _).symm.trans ?_
  rw [sum0_le_all _ _ h9]
  exact Cert.Spec.sum_chunks (fun f => arr0_x V c (ix2 b f) * arr0_w V c (ix2 f q))

/-- The output window's block index at point t: (t / 10, 0). -/
theorem idx0_out : ∀ t : Fin cfg0.N, win0_2.index t 0 = t.val / 10 ∧ win0_2.index t 1 = 0 :=
  (by decide +kernel : ∀ t : Fin grid0.N, win0_2.index t 0 = t.val / 10 ∧ win0_2.index t 1 = 0)

/-- The output window's blocks are whole: 1024 rows by 256 columns at every point. -/
theorem xsize0_out : ∀ t : Fin cfg0.N, win0_2.xsize (grid0.coords t) 0 = 1024 ∧ win0_2.xsize (grid0.coords t) 1 = 256 :=
  (by decide +kernel : ∀ t : Fin grid0.N, win0_2.xsize (grid0.coords t) 0 = 1024 ∧ win0_2.xsize (grid0.coords t) 1 = 256)

/-- Entry j of the output window's block at point t, read off contents G of the output array, is G at
    (1024·(t / 10) + j₀, j₁). -/
theorem read0_out (G : (⟨2, ![4096, 256]⟩ : Shape).Idx → EReal) (t : Fin cfg0.N) (j : ((cfg0.win 2).xblock (grid0.coords t)).Idx)
    (b : Fin 4096) (q : Fin 256) (hb : b.val = 1024 * (t.val / 10) + (j 0).val) (hq : q.val = (j 1).val) :
    ((cfg0.win 2).blk t).view.read (Elt Ideal) G j = G (ix2 b q) := by
  rw [View.read_apply]
  show G _ = G _
  refine congrArg G ?_
  funext a
  apply Fin.ext
  match a with
  | ⟨0, _⟩ => show win0_2.index t 0 * 1024 + 1 * (j 0).val = b.val; rw [(idx0_out t).1, hb]; omega
  | ⟨1, _⟩ => show win0_2.index t 1 * 256 + 1 * (j 1).val = q.val; rw [(idx0_out t).2, hq]; omega

/-- What a last chunk's point writes back is its block of the product. -/
theorem flushed0_eq (c : Dev nD) (t : Fin cfg0.N) (hf : (cfg0.win 2).flush t = true) :
    (dat0 V c).flushed 2 t = ((cfg0.win 2).blk t).view.read (Elt Ideal) (Cert.Spec.MatK (V c main_arg0) (V c main_v3)) := by
  have h9 : t.val % 10 = 9 := (flush0_2 t).mp hf
  have hN : cfg0.N = 40 := N_0
  have hlt := t.isLt
  show (cfg0.win 2).cut (grid0.coords t) ((dat0 V c).after 2 t) = _
  rw [after0_2]
  funext j
  have hj0 : (j 0).val < 1024 := (j 0).isLt.trans_eq (xsize0_out t).1
  have hj1 : (j 1).val < 256 := (j 1).isLt.trans_eq (xsize0_out t).2
  refine Eq.trans (b := (outsAt0 V c t.val t.isLt).1 (ix2 ⟨(j 0).val, hj0⟩ ⟨(j 1).val, hj1⟩)) ?_ ?_
  · show (outsAt0 V c t.val t.isLt).1 ((cfg0.win 2).xinj (grid0.coords t) j) = _
    refine congrArg (outsAt0 V c t.val t.isLt).1 ?_
    funext a
    match a with
    | ⟨0, _⟩ => rfl
    | ⟨1, _⟩ => rfl
  · refine (out0_last V c t h9 ⟨(j 0).val, hj0⟩ ⟨(j 1).val, hj1⟩ ⟨1024 * (t.val / 10) + (j 0).val, by omega⟩ rfl).trans ?_
    exact (read0_out (Cert.Spec.MatK (V c main_arg0) (V c main_v3)) t j ⟨1024 * (t.val / 10) + (j 0).val, by omega⟩ ⟨(j 1).val, hj1⟩ rfl rfl).symm

/-- Row b of the output array lies in the block written back at the last chunk of row block b / 1024. -/
theorem cover0_out (i : (⟨2, ![4096, 256]⟩ : Shape).Idx) :
    ∃ t : Fin cfg0.N, (cfg0.win 2).flush t = true ∧ i ∈ ((cfg0.win 2).blk t).view.set := by
  have hN : cfg0.N = 40 := N_0
  have h0 : (i 0 : Nat) < 4096 := (i 0).isLt
  have h1 : (i 1 : Nat) < 256 := (i 1).isLt
  have ht : 10 * ((i 0).val / 1024) + 9 < cfg0.N := by rw [hN]; omega
  obtain ⟨t, htv⟩ : ∃ t : Fin cfg0.N, t.val = 10 * ((i 0).val / 1024) + 9 := ⟨⟨_, ht⟩, rfl⟩
  refine ⟨t, (flush0_2 t).mpr (by rw [htv]; omega), ?_⟩
  show i ∈ ((View.whole main_v4).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    rw [(idx0_out t).1, (xsize0_out t).1, show win0_2.size 0 = 1024 from rfl, htv]
    omega
  | ⟨1, _⟩ =>
    show win0_2.index t 1 * win0_2.size 1 ≤ (i 1 : Nat) ∧ (i 1 : Nat) < win0_2.index t 1 * win0_2.size 1 + win0_2.xsize (grid0.coords t) 1
    rw [(idx0_out t).2, (xsize0_out t).2]
    omega

end

/-- After launch 0 its output array holds (features as the launch found them) times (weights as the launch found
    them), on the extended reals. -/
theorem final0 (V : (c : Dev nD) → (b : Ref sig .tc) → Buf (Elt Ideal) ((c : Thread nD τ).loc b)) (c : Dev nD) :
    ((dat0 (F := Ideal) V c).arrAt 2 cfg0.N : (⟨S4096x256, .f32⟩ : BufTy).Contents (Elt Ideal))
      = Cert.Spec.MatK (V c main_arg0) (V c main_v3) :=
  (dat0 V c).arrAt_eq_of_cover 2 (Cert.Spec.MatK (V c main_arg0) (V c main_v3)) (flushed0_eq V c) cover0_out

end Cert.KernelIdeal.Hand

end
-- ==== Proof.KiR1Pieces.lean ====
/-
  Launch 1 of the idealized kernel: what each case's stores leave, as the body's arithmetic of what it loaded, and where
  a window's block sits in its array.

  Every store of the body covers its whole buffer, so what a buffer holds after the body is the last store's value: the
  accumulator ends at (its contents at the point's start, or zero at a first chunk) plus the chunk's product, and at a
  last chunk the output block ends at the same value. Point t = 10·i + k stages rows 1024·i … of the features at columns
  2048·k …, and rows 2048·k … of the combined weights.
-/
import proofs.«176289_j28192165331581_1_alg».proof.Proof.KiR1Body
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores hold, as the body's arithmetic of the blocks -/

theorem hz1 : (![0, 0] : Fin 2 → Nat) = fun _ => 0 := funext fun a => by fin_cases a <;> rfl

/-- A first chunk leaves in the accumulator the zero block plus the chunk's product: the reset is read back by the
    update, which covers it. -/
theorem piece1_A (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S2048x256 .bf16) :
    sout1_A_0 c i arg2 harg2 arg3 harg3 arg4 harg4 arg5 harg5 hc0 hc1 x0 x1 = k1_pay2 x0 (k1_pay1 (F := F)) x1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S1024x256) hz1]
  simp only [View.readAt_eq_ld, harg2.read_unread, harg3.read_unread, View.ld_unit_zero (S := S1024x2048) hz1, View.ld_unit_zero (S := S2048x256) hz1, View.readCov_unit_zero (S := S1024x256) _ hz1]

/-- A middle chunk leaves in the accumulator what it held plus the chunk's product. -/
theorem piece1_B (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S2048x256 .bf16) (xs0 : Vec F S1024x256 .f32) :
    sout1_B_0 c i arg2 harg2 arg3 harg3 arg4 harg4 arg5 harg5 hc0 hc1 x0 x1 xs0 = k1_pay2 x0 xs0 x1 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero hz1]
  simp only [View.readAt_eq_ld, harg2.read_unread, harg3.read_unread, harg5.read_unread, View.ld_unit_zero (S := S1024x2048) hz1, View.ld_unit_zero (S := S2048x256) hz1, View.ld_unit_zero (S := S1024x256) hz1]

/-- A last chunk leaves in the accumulator what it held plus the chunk's product, -/
theorem piece1_C (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) :
    sout1_C_0 c i arg2 harg2 arg3 harg3 arg4 harg4 arg5 harg5 hc0 hc1 x0 x1 xs0 = k1_pay2 x0 xs0 x1 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz1]
  simp only [View.readAt_eq_ld, harg2.read_unread, harg3.read_unread, harg5.read_unread, View.ld_unit_zero (S := S1024x2048) hz1, View.ld_unit_zero (S := S2048x256) hz1, View.ld_unit_zero (S := S1024x256) hz1]

/-- and in the output block the copy of that. -/
theorem piece1_C_out (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S2048x256 .bf16) (xs0 : Vec F S1024x256 .f32) :
    out1_C_2 c i arg2 harg2 arg3 harg3 arg4 harg4 arg5 harg5 hc0 hc1 x0 x1 xs0 = k1_pay2 x0 xs0 x1 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz1]
  simp only [View.readAt_eq_ld, harg2.read_unread, harg3.read_unread, harg5.read_unread, View.ld_unit_zero (S := S1024x2048) hz1, View.ld_unit_zero (S := S2048x256) hz1, View.ld_unit_zero (S := S1024x256) hz1, View.readCov_unit_zero (S := S1024x256) _ hz1]

/-! ## Where a window's block sits in its array -/

/-- The feature window's block index at point t: (t / 10, t % 10). -/
theorem idx1_x : ∀ t : Fin cfg1.N, win1_0.index t 0 = t.val / 10 ∧ win1_0.index t 1 = t.val % 10 :=
  (by decide +kernel : ∀ t : Fin grid1.N, win1_0.index t 0 = t.val / 10 ∧ win1_0.index t 1 = t.val % 10)

/-- The weight window's block index at point t: (t % 10, 0). -/
theorem idx1_w : ∀ t : Fin cfg1.N, win1_1.index t 0 = t.val % 10 ∧ win1_1.index t 1 = 0 :=
  (by decide +kernel : ∀ t : Fin grid1.N, win1_1.index t 0 = t.val % 10 ∧ win1_1.index t 1 = 0)

section
variable (V : (c : Dev nD) → (b : Ref sig .tc) → Buf (Elt F) ((c : Thread nD τ).loc b))

/-- Entry (r, f) of the feature block at point t is entry (1024·(t/10) + r, 2048·(t%10) + f) of the feature array. -/
theorem blockRow1_x (c : Dev nD) (t : Fin cfg1.N) (r : Fin 1024) (f : Fin 2048) :
    (iblk1 V c 0 t : Vec F S1024x2048 .f32) (ValueIdx.ix2 r f)
      = (V c main_arg1 : (⟨S4096x20480, .f32⟩ : BufTy).Contents (Elt F))
          (ValueIdx.ix2 (n0 := 4096) (n1 := 20480)
            ⟨1024 * (t.val / 10) + r.val, by have := t.isLt; have hN : cfg1.N = 40 := N_1; have := r.isLt; omega⟩
            ⟨2048 * (t.val % 10) + f.val, by have := f.isLt; omega⟩) := by
  unfold iblk1
  rw [View.read_apply]
  show V c main_arg1 _ = V c main_arg1 _
  refine congrArg (V c main_arg1) ?_
  funext a
  apply Fin.ext
  match a with
  | ⟨0, _⟩ => show win1_0.index t 0 * 1024 + 1 * r.val = 1024 * (t.val / 10) + r.val; rw [(idx1_x t).1]; omega
  | ⟨1, _⟩ => show win1_0.index t 1 * 2048 + 1 * f.val = 2048 * (t.val % 10) + f.val; rw [(idx1_x t).2]; omega

/-- Entry (f, n) of the weight block at point t is entry (2048·(t%10) + f, n) of the combined weight matrix. -/
theorem blockRow1_w (c : Dev nD) (t : Fin cfg1.N) (f : Fin 2048) (n : Fin 256) :
    (iblk1 V c 1 t : Vec F S2048x256 .bf16) (ValueIdx.ix2 f n)
      = (V c main_v3 : (⟨S20480x256, .bf16⟩ : BufTy).Contents (Elt F))
          (ValueIdx.ix2 (n0 := 20480) (n1 := 256) ⟨2048 * (t.val % 10) + f.val, by have := f.isLt; omega⟩ n) := by
  unfold iblk1
  rw [View.read_apply]
  show V c main_v3 _ = V c main_v3 _
  refine congrArg (V c main_v3) ?_
  funext a
  apply Fin.ext
  match a with
  | ⟨0, _⟩ => show win1_1.index t 0 * 2048 + 1 * f.val = 2048 * (t.val % 10) + f.val; rw [(idx1_w t).1]; omega
  | ⟨1, _⟩ => show win1_1.index t 1 * 256 + 1 * n.val = n.val; rw [(idx1_w t).2]; omega
end

end Cert.KernelIdeal.Hand

end
-- ==== Proof.KiR1Value.lean ====
/-
  Launch 1 of the idealized kernel at the exact reals: the output array after the launch is the product of
  the black features with the combined weight matrix.

  The accumulator after point t = 10·i + k holds, entry by entry, the sum over the chunks 0 … k of row block i's
  partial products (zero, then one `tpu.matmul` per chunk added on); at k = 9 the output block receives it, and the
  ten chunk sums are one sum over all 20480 features. The four flushed row blocks tile the output array.
-/
import proofs.«176289_j28192165331581_1_alg».proof.Proof.KiR1Body
import proofs.«176289_j28192165331581_1_alg».proof.Proof.KiR1Pieces
import proofs.«176289_j28192165331581_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's arithmetic at an entry, on the extended reals -/

open Idealize.ShloMosaic.ValueIdx

/-- The four coordinate facts of the body's product: entry (r, n) of the product reads row r of the left block and
    column n of the right one, along the one contracted axis. -/
theorem dotL1_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem dotL1_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem dotR1_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem dotR1_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The reset's block is zero everywhere. -/
theorem pay1_reset_apply (j : S1024x256.Idx) : k1_pay1 (F := Ideal) j = 0 := by
  unfold k1_pay1
  simp only [shapeCast_self]
  exact Ideal.ofBits_zero_f32

/-- The update at entry (r, n): what the accumulator held there plus the sum over the chunk's 2048 features of
    (feature block at (r, f)) · (weight block at (f, n)); the narrowing of the features to bf16 is the identity on the
    extended reals. -/
theorem pay1_update_apply (x : Vec Ideal S1024x2048 .f32) (acc : Vec Ideal S1024x256 .f32) (w : Vec Ideal S2048x256 .bf16)
    (r : Fin 1024) (n : Fin 256) :
    k1_pay2 (F := Ideal) x acc w (ix2 r n) = acc (ix2 r n) + ∑ f : Fin 2048, x (ix2 r f) * w (ix2 f n) := by
  unfold k1_pay2
  simp only [shapeCast_self]
  show acc (ix2 r n) + FloatOps.matmul dot_S1024x2048_S2048x256_S1024x256_1_0_0_1_n_n none x w (constant (F := Ideal) S1024x256 .f32 0x00000000#32) (ix2 r n) = _
  refine congrArg (acc (ix2 r n) + ·) ?_
  refine (Ideal.matmul_constant_zero_apply (φ₁ := .f32) (φ₂ := .bf16) dot_S1024x2048_S2048x256_S1024x256_1_0_0_1_n_n none x w (ix2 r n)).trans ?_
  rw [← Equiv.sum_comp (contrEquiv1 dot_S1024x2048_S2048x256_S1024x256_1_0_0_1_n_n 2048 rfl rfl).symm]
  refine Finset.sum_congr rfl fun f _ => ?_
  have hf := contrEquiv1_symm_val dot_S1024x2048_S2048x256_S1024x256_1_0_0_1_n_n 2048 rfl rfl f
  have el : dot_S1024x2048_S2048x256_S1024x256_1_0_0_1_n_n.lhsIdx (ix2 r n) ((contrEquiv1 dot_S1024x2048_S2048x256_S1024x256_1_0_0_1_n_n 2048 rfl rfl).symm f) = ix2 r f := funext fun a => Fin.ext (by
    match a with
    | ⟨0, _⟩ => exact dotL1_0 _ _
    | ⟨1, _⟩ => exact (dotL1_1 _ _).trans hf)
  have er : dot_S1024x2048_S2048x256_S1024x256_1_0_0_1_n_n.rhsIdx (ix2 r n) ((contrEquiv1 dot_S1024x2048_S2048x256_S1024x256_1_0_0_1_n_n 2048 rfl rfl).symm f) = ix2 f n := funext fun a => Fin.ext (by
    match a with
    | ⟨0, _⟩ => exact (dotR1_0 _ _).trans hf
    | ⟨1, _⟩ => exact dotR1_1 _ _)
  rw [el, er]

/-! ## Sums over the chunks seen so far -/

/-- Only chunk 0 has been seen. -/
theorem sum1_le_first (T : Fin 10 → EReal) (m : ℕ) (hm : m = 0) (h : m < 10) :
    (∑ k : Fin 10, if k.val ≤ m then T k else 0) = T ⟨m, h⟩ := by
  subst hm
  have e : ∀ k : Fin 10, (if k.val ≤ 0 then T k else 0) = if k = ⟨0, h⟩ then T k else 0 := fun k => by
    by_cases hk : k.val ≤ 0
    · rw [if_pos hk, if_pos (Fin.ext (Nat.le_zero.mp hk))]
    · rw [if_neg hk, if_neg (fun e => hk (by rw [e]))]
  rw [Finset.sum_congr rfl fun k _ => e k, Finset.sum_ite_eq' Finset.univ (⟨0, h⟩ : Fin 10) T, if_pos (Finset.mem_univ _)]

/-- One more chunk: the sum over the chunks up to m' = m + 1 is the sum up to m plus chunk m'. -/
theorem sum1_le_next (T : Fin 10 → EReal) (m m' : ℕ) (hm : m' = m + 1) (h : m' < 10) :
    (∑ k : Fin 10, if k.val ≤ m' then T k else 0) = (∑ k : Fin 10, if k.val ≤ m then T k else 0) + T ⟨m', h⟩ := by
  subst hm
  have e : ∀ k : Fin 10, (if k.val ≤ m + 1 then T k else 0) = (if k.val ≤ m then T k else 0) + (if k = ⟨m + 1, h⟩ then T k else 0) := fun k => by
    by_cases h1 : k.val ≤ m
    · have hne : k ≠ ⟨m + 1, h⟩ := fun e => by rw [e] at h1; exact absurd h1 (by show ¬ m + 1 ≤ m; omega)
      rw [if_pos h1, if_pos (by omega), if_neg hne, add_zero]
    · by_cases h2 : k.val = m + 1
      · rw [if_neg h1, if_pos (by omega), if_pos (Fin.ext h2), zero_add]
      · have hne : k ≠ ⟨m + 1, h⟩ := fun e => h2 (congrArg Fin.val e)
        rw [if_neg h1, if_neg (by omega), if_neg hne, add_zero]
  rw [Finset.sum_congr rfl fun k _ => e k, Finset.sum_add_distrib, Finset.sum_ite_eq' Finset.univ (⟨m + 1, h⟩ : Fin 10) T, if_pos (Finset.mem_univ _)]

/-- All ten chunks have been seen. -/
theorem sum1_le_all (T : Fin 10 → EReal) (m : ℕ) (hm : m = 9) :
    (∑ k : Fin 10, if k.val ≤ m then T k else 0) = ∑ k : Fin 10, T k :=
  Finset.sum_congr rfl fun k _ => if_pos (by have := k.isLt; omega)

/-! ## The accumulator after every point -/

/-- Chunk k of entry (b, n) of the product: the 2048 features 2048·k … 2048·k + 2047. -/
def chunk1_term (X : (⟨2, ![4096, 20480]⟩ : Shape).Idx → EReal) (W : (⟨2, ![20480, 256]⟩ : Shape).Idx → EReal)
    (b : Fin 4096) (n : Fin 256) (k : Fin 10) : EReal :=
  ∑ f : Fin 2048, X (ix2 b ⟨2048 * k.val + f.val, by have := k.isLt; have := f.isLt; omega⟩) * W (ix2 ⟨2048 * k.val + f.val, by have := k.isLt; have := f.isLt; omega⟩ n)

/-- The update with blocks that are chunk k of row b of the arrays adds chunk k of entry (b, n). -/
theorem pay1_chunk (x : Vec Ideal S1024x2048 .f32) (acc : Vec Ideal S1024x256 .f32) (w : Vec Ideal S2048x256 .bf16)
    (X : (⟨2, ![4096, 20480]⟩ : Shape).Idx → EReal) (W : (⟨2, ![20480, 256]⟩ : Shape).Idx → EReal)
    (r : Fin 1024) (n : Fin 256) (b : Fin 4096) (k : Fin 10)
    (hx : ∀ f : Fin 2048, x (ix2 r f) = X (ix2 b ⟨2048 * k.val + f.val, by have := k.isLt; have := f.isLt; omega⟩))
    (hw : ∀ f : Fin 2048, w (ix2 f n) = W (ix2 ⟨2048 * k.val + f.val, by have := k.isLt; have := f.isLt; omega⟩ n)) :
    k1_pay2 (F := Ideal) x acc w (ix2 r n) = acc (ix2 r n) + chunk1_term X W b n k := by
  rw [pay1_update_apply]
  unfold chunk1_term
  exact congrArg (acc (ix2 r n) + ·) (Finset.sum_congr rfl fun f _ => by rw [hx f, hw f])

section
variable (V : (c : Dev nD) → (b : Ref sig .tc) → Buf (Elt Ideal) ((c : Thread nD τ).loc b))

/-- The point's feature block and weight block, and the two arrays the launch reads. -/
abbrev blk1_x (c : Dev nD) (t : Fin cfg1.N) : Vec Ideal S1024x2048 .f32 := iblk1 V c 0 t
abbrev blk1_w (c : Dev nD) (t : Fin cfg1.N) : Vec Ideal S2048x256 .bf16 := iblk1 V c 1 t
abbrev arr1_x (c : Dev nD) : (⟨2, ![4096, 20480]⟩ : Shape).Idx → EReal := V c main_arg1
abbrev arr1_w (c : Dev nD) : (⟨2, ![20480, 256]⟩ : Shape).Idx → EReal := V c main_v3

/-- The feature block at point t, row r, is chunk t % 10 of row b = 1024·(t / 10) + r of the feature array. -/
theorem blk1_x_row (c : Dev nD) (t : Fin cfg1.N) (r : Fin 1024) (b : Fin 4096) (k : Fin 10)
    (hb : b.val = 1024 * (t.val / 10) + r.val) (hk : k.val = t.val % 10) (f : Fin 2048) :
    blk1_x V c t (ix2 r f) = arr1_x V c (ix2 b ⟨2048 * k.val + f.val, by have := k.isLt; have := f.isLt; omega⟩) := by
  refine (blockRow1_x V c t r f).trans ?_
  show arr1_x V c _ = arr1_x V c _
  refine congrArg (arr1_x V c) ?_
  funext a
  match a with
  | ⟨0, _⟩ => exact Fin.ext hb.symm
  | ⟨1, _⟩ => exact Fin.ext (by show 2048 * (t.val % 10) + f.val = 2048 * k.val + f.val; rw [hk])

/-- The weight block at point t is chunk t % 10 of the rows of the weight array. -/
theorem blk1_w_row (c : Dev nD) (t : Fin cfg1.N) (n : Fin 256) (k : Fin 10) (hk : k.val = t.val % 10) (f : Fin 2048) :
    blk1_w V c t (ix2 f n) = arr1_w V c (ix2 ⟨2048 * k.val + f.val, by have := k.isLt; have := f.isLt; omega⟩ n) := by
  refine (blockRow1_w V c t f n).trans ?_
  show arr1_w V c _ = arr1_w V c _
  refine congrArg (arr1_w V c) ?_
  funext a
  match a with
  | ⟨0, _⟩ => exact Fin.ext (by show 2048 * (t.val % 10) + f.val = 2048 * k.val + f.val; rw [hk])
  | ⟨1, _⟩ => rfl

/-- At a first chunk the accumulator is reset and receives chunk 0. -/
theorem acc1_first (c : Dev nD) (t : Fin cfg1.N) (h0 : t.val % 10 = 0) (r : Fin 1024) (q : Fin 256) (b : Fin 4096)
    (hb : b.val = 1024 * (t.val / 10) + r.val) :
    (outsAt1 V c t.val t.isLt).2 (ix2 r q) = ∑ k : Fin 10, if k.val ≤ t.val % 10 then chunk1_term (arr1_x V c) (arr1_w V c) b q k else 0 := by
  have h9 : ¬t.val % 10 = 9 := by omega
  rw [outsAt1_A V c t h0 h9]
  dsimp only
  refine (congrFun (piece1_A (F := Ideal) c (grid1.coords t) (ms1_0 t) (hs1_0 t) (ms1_1 t) (hs1_1 t) (ms1_2 t) (hs1_2 t) scM1_0 (Memref.isWhole_whole _) ((hcond1_0 t).mpr h0) (fun h => h9 ((hcond1_1 t).mp h)) (blk1_x V c t) (blk1_w V c t)) (ix2 r q)).trans ?_
  refine (pay1_chunk (blk1_x V c t) (k1_pay1 (F := Ideal)) (blk1_w V c t) (arr1_x V c) (arr1_w V c) r q b ⟨t.val % 10, Nat.mod_lt _ (by decide)⟩
    (blk1_x_row V c t r b _ hb rfl) (blk1_w_row V c t q _ rfl)).trans ?_
  rw [pay1_reset_apply, zero_add]
  exact (sum1_le_first _ (t.val % 10) h0 _).symm

/-- After point n = 10·i + k the accumulator holds, at entry (r, q), the chunks 0 … k of entry (1024·i + r, q) of the
    product: zero and chunk 0 at a first chunk, one more chunk at every later one. -/
theorem acc1_inv (c : Dev nD) : ∀ (n : ℕ) (hn : n < cfg1.N) (r : Fin 1024) (q : Fin 256) (b : Fin 4096),
    b.val = 1024 * (n / 10) + r.val →
    (outsAt1 V c n hn).2 (ix2 r q) = ∑ k : Fin 10, if k.val ≤ n % 10 then chunk1_term (arr1_x V c) (arr1_w V c) b q k else 0 := by
  intro n
  induction n with
  | zero =>
    intro hn r q b hb
    exact acc1_first V c ⟨0, hn⟩ (Nat.zero_mod _) r q b hb
  | succ n ih =>
    intro hn r q b hb
    have hN : cfg1.N = 40 := N_1
    by_cases h0 : (n + 1) % 10 = 0
    · exact acc1_first V c ⟨n + 1, hn⟩ h0 r q b hb
    · by_cases h9 : (n + 1) % 10 = 9
      · -- a last chunk
        have e := outsAt1_C V c ⟨n + 1, hn⟩ h0 h9
        rw [e]
        dsimp only
        refine (congrFun (piece1_C (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h9) (blk1_x V c ⟨n + 1, hn⟩) (blk1_w V c ⟨n + 1, hn⟩) (outsAt1 V c n (Nat.lt_of_succ_lt hn)).2) (ix2 r q)).trans ?_
        refine (pay1_chunk (blk1_x V c ⟨n + 1, hn⟩) (outsAt1 V c n (Nat.lt_of_succ_lt hn)).2 (blk1_w V c ⟨n + 1, hn⟩) (arr1_x V c) (arr1_w V c) r q b ⟨(n + 1) % 10, Nat.mod_lt _ (by decide)⟩
          (blk1_x_row V c ⟨n + 1, hn⟩ r b _ hb rfl) (blk1_w_row V c ⟨n + 1, hn⟩ q _ rfl)).trans ?_
        rw [ih (Nat.lt_of_succ_lt hn) r q b (by omega)]
        exact (sum1_le_next _ (n % 10) ((n + 1) % 10) (by omega) _).symm
      · -- a middle chunk
        have e := outsAt1_B V c ⟨n + 1, hn⟩ h0 h9
        rw [e]
        dsimp only
        refine (congrFun (piece1_B (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h9 ((hcond1_1 ⟨n + 1, hn⟩).mp h)) (blk1_x V c ⟨n + 1, hn⟩) (blk1_w V c ⟨n + 1, hn⟩) (outsAt1 V c n (Nat.lt_of_succ_lt hn)).2) (ix2 r q)).trans ?_
        refine (pay1_chunk (blk1_x V c ⟨n + 1, hn⟩) (outsAt1 V c n (Nat.lt_of_succ_lt hn)).2 (blk1_w V c ⟨n + 1, hn⟩) (arr1_x V c) (arr1_w V c) r q b ⟨(n + 1) % 10, Nat.mod_lt _ (by decide)⟩
          (blk1_x_row V c ⟨n + 1, hn⟩ r b _ hb rfl) (blk1_w_row V c ⟨n + 1, hn⟩ q _ rfl)).trans ?_
        rw [ih (Nat.lt_of_succ_lt hn) r q b (by omega)]
        exact (sum1_le_next _ (n % 10) ((n + 1) % 10) (by omega) _).symm
end

section
variable (V : (c : Dev nD) → (b : Ref sig .tc) → Buf (Elt Ideal) ((c : Thread nD τ).loc b))

/-! ## What a last chunk copies into the output block, and the array after the launch -/

/-- At a last chunk the output block receives all ten chunks of its entries: entry (r, q) of the block is entry
    (1024·(t / 10) + r, q) of the product. -/
theorem out1_last (c : Dev nD) (t : Fin cfg1.N) (h9 : t.val % 10 = 9) (r : Fin 1024) (q : Fin 256) (b : Fin 4096)
    (hb : b.val = 1024 * (t.val / 10) + r.val) :
    (outsAt1 V c t.val t.isLt).1 (ix2 r q) = Cert.Spec.MatK (arr1_x V c) (arr1_w V c) (ix2 b q) := by
  have h0 : ¬t.val % 10 = 0 := by omega
  have hN : cfg1.N = 40 := N_1
  have hlt := t.isLt
  rw [outsAt1_C V c t h0 h9]
  dsimp only
  refine (congrFun (piece1_C_out (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h9) (blk1_x V c t) (blk1_w V c t) (outsAt1 V c (t.val - 1) (Nat.lt_of_le_of_lt (Nat.sub_le _ _) t.isLt)).2) (ix2 r q)).trans ?_
  refine (pay1_chunk (blk1_x V c t) (outsAt1 V c (t.val - 1) (Nat.lt_of_le_of_lt (Nat.sub_le _ _) t.isLt)).2 (blk1_w V c t) (arr1_x V c) (arr1_w V c) r q b ⟨t.val % 10, Nat.mod_lt _ (by decide)⟩
    (blk1_x_row V c t r b _ hb rfl) (blk1_w_row V c t q _ rfl)).trans ?_
  rw [acc1_inv V c (t.val - 1) (Nat.lt_of_le_of_lt (Nat.sub_le _ _) t.isLt) r q b (by omega)]
  refine (sum1_le_next _ ((t.val - 1) % 10) (t.val % 10) (by omega) _).symm.trans ?_
  rw [sum1_le_all _ _ h9]
  exact Cert.Spec.sum_chunks (fun f => arr1_x V c (ix2 b f) * arr1_w V c (ix2 f q))

/-- The output window's block index at point t: (t / 10, 0). -/
theorem idx1_out : ∀ t : Fin cfg1.N, win1_2.index t 0 = t.val / 10 ∧ win1_2.index t 1 = 0 :=
  (by decide +kernel : ∀ t : Fin grid1.N, win1_2.index t 0 = t.val / 10 ∧ win1_2.index t 1 = 0)

/-- The output window's blocks are whole: 1024 rows by 256 columns at every point. -/
theorem xsize1_out : ∀ t : Fin cfg1.N, win1_2.xsize (grid1.coords t) 0 = 1024 ∧ win1_2.xsize (grid1.coords t) 1 = 256 :=
  (by decide +kernel : ∀ t : Fin grid1.N, win1_2.xsize (grid1.coords t) 0 = 1024 ∧ win1_2.xsize (grid1.coords t) 1 = 256)

/-- Entry j of the output window's block at point t, read off contents G of the output array, is G at
    (1024·(t / 10) + j₀, j₁). -/
theorem read1_out (G : (⟨2, ![4096, 256]⟩ : Shape).Idx → EReal) (t : Fin cfg1.N) (j : ((cfg1.win 2).xblock (grid1.coords t)).Idx)
    (b : Fin 4096) (q : Fin 256) (hb : b.val = 1024 * (t.val / 10) + (j 0).val) (hq : q.val = (j 1).val) :
    ((cfg1.win 2).blk t).view.read (Elt Ideal) G j = G (ix2 b q) := by
  rw [View.read_apply]
  show G _ = G _
  refine congrArg G ?_
  funext a
  apply Fin.ext
  match a with
  | ⟨0, _⟩ => show win1_2.index t 0 * 1024 + 1 * (j 0).val = b.val; rw [(idx1_out t).1, hb]; omega
  | ⟨1, _⟩ => show win1_2.index t 1 * 256 + 1 * (j 1).val = q.val; rw [(idx1_out t).2, hq]; omega

/-- What a last chunk's point writes back is its block of the product. -/
theorem flushed1_eq (c : Dev nD) (t : Fin cfg1.N) (hf : (cfg1.win 2).flush t = true) :
    (dat1 V c).flushed 2 t = ((cfg1.win 2).blk t).view.read (Elt Ideal) (Cert.Spec.MatK (V c main_arg1) (V c main_v3)) := by
  have h9 : t.val % 10 = 9 := (flush1_2 t).mp hf
  have hN : cfg1.N = 40 := N_1
  have hlt := t.isLt
  show (cfg1.win 2).cut (grid1.coords t) ((dat1 V c).after 2 t) = _
  rw [after1_2]
  funext j
  have hj0 : (j 0).val < 1024 := (j 0).isLt.trans_eq (xsize1_out t).1
  have hj1 : (j 1).val < 256 := (j 1).isLt.trans_eq (xsize1_out t).2
  refine Eq.trans (b := (outsAt1 V c t.val t.isLt).1 (ix2 ⟨(j 0).val, hj0⟩ ⟨(j 1).val, hj1⟩)) ?_ ?_
  · show (outsAt1 V c t.val t.isLt).1 ((cfg1.win 2).xinj (grid1.coords t) j) = _
    refine congrArg (outsAt1 V c t.val t.isLt).1 ?_
    funext a
    match a with
    | ⟨0, _⟩ => rfl
    | ⟨1, _⟩ => rfl
  · refine (out1_last V c t h9 ⟨(j 0).val, hj0⟩ ⟨(j 1).val, hj1⟩ ⟨1024 * (t.val / 10) + (j 0).val, by omega⟩ rfl).trans ?_
    exact (read1_out (Cert.Spec.MatK (V c main_arg1) (V c main_v3)) t j ⟨1024 * (t.val / 10) + (j 0).val, by omega⟩ ⟨(j 1).val, hj1⟩ rfl rfl).symm

/-- Row b of the output array lies in the block written back at the last chunk of row block b / 1024. -/
theorem cover1_out (i : (⟨2, ![4096, 256]⟩ : Shape).Idx) :
    ∃ t : Fin cfg1.N, (cfg1.win 2).flush t = true ∧ i ∈ ((cfg1.win 2).blk t).view.set := by
  have hN : cfg1.N = 40 := N_1
  have h0 : (i 0 : Nat) < 4096 := (i 0).isLt
  have h1 : (i 1 : Nat) < 256 := (i 1).isLt
  have ht : 10 * ((i 0).val / 1024) + 9 < cfg1.N := by rw [hN]; omega
  obtain ⟨t, htv⟩ : ∃ t : Fin cfg1.N, t.val = 10 * ((i 0).val / 1024) + 9 := ⟨⟨_, ht⟩, rfl⟩
  refine ⟨t, (flush1_2 t).mpr (by rw [htv]; omega), ?_⟩
  show i ∈ ((View.whole main_v5).slice (win1_2.rect t)).set
  rw [View.set_slice_whole, Rect.mem_set_unit]
  intro a
  match a with
  | ⟨0, _⟩ =>
    show win1_2.index t 0 * win1_2.size 0 ≤ (i 0 : Nat) ∧ (i 0 : Nat) < win1_2.index t 0 * win1_2.size 0 + win1_2.xsize (grid1.coords t) 0
    rw [(idx1_out t).1, (xsize1_out t).1, show win1_2.size 0 = 1024 from rfl, htv]
    omega
  | ⟨1, _⟩ =>
    show win1_2.index t 1 * win1_2.size 1 ≤ (i 1 : Nat) ∧ (i 1 : Nat) < win1_2.index t 1 * win1_2.size 1 + win1_2.xsize (grid1.coords t) 1
    rw [(idx1_out t).2, (xsize1_out t).2]
    omega

end

/-- After launch 1 its output array holds (features as the launch found them) times (weights as the launch found
    them), on the extended reals. -/
theorem final1 (V : (c : Dev nD) → (b : Ref sig .tc) → Buf (Elt Ideal) ((c : Thread nD τ).loc b)) (c : Dev nD) :
    ((dat1 (F := Ideal) V c).arrAt 2 cfg1.N : (⟨S4096x256, .f32⟩ : BufTy).Contents (Elt Ideal))
      = Cert.Spec.MatK (V c main_arg1) (V c main_v3) :=
  (dat1 V c).arrAt_eq_of_cover 2 (Cert.Spec.MatK (V c main_arg1) (V c main_v3)) (flushed1_eq V c) cover1_out

end Cert.KernelIdeal.Hand

end
-- ==== Proof.KiValue.lean ====
/-
  The idealized kernel's result as a function of its arguments, at the exact reals: each launch leaves the product of
  its colour's features with the combined weight matrix; the two column slices of such a product are the reference's own
  products (features times score weights, features times accumulator weights); so the result buffer holds the shared
  tail function of the reference's four products, the bias and the output weights.
-/
import proofs.«176289_j28192165331581_1_alg».proof.Proof.KiRun
import proofs.«176289_j28192165331581_1_alg».proof.Proof.HostRead
import proofs.«176289_j28192165331581_1_alg».proof.Proof.RefBridge
import proofs.«176289_j28192165331581_1_alg».proof.Proof.KiR0Value
import proofs.«176289_j28192165331581_1_alg».proof.Proof.KiR1Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Launch 0 leaves (white features) · (combined weights). -/
theorem out0_eq (c : Dev nD) :
    (outsOf m 4 main_v4 c : (⟨S4096x256, .f32⟩ : BufTy).Contents (Elt Ideal))
      = Cert.Spec.MatK (m ((c : Thread nD τ).loc main_arg0)) (Wt (F := Ideal) (m ((c : Thread nD τ).loc main_arg2)) (m ((c : Thread nD τ).loc main_arg3))) :=
  (outsOf_4 m c).trans ((final0 (E3 m) c).trans
    (congrArg₂ Cert.Spec.MatK (V3_main_arg0 m c) (V3_main_v3 m c)))

/-- Launch 1 leaves (black features) · (combined weights): it finds the weight matrix as launch 0 did. -/
theorem out1_eq (c : Dev nD) :
    (outsOf m 5 main_v5 c : (⟨S4096x256, .f32⟩ : BufTy).Contents (Elt Ideal))
      = Cert.Spec.MatK (m ((c : Thread nD τ).loc main_arg1)) (Wt (F := Ideal) (m ((c : Thread nD τ).loc main_arg2)) (m ((c : Thread nD τ).loc main_arg3))) :=
  (outsOf_5 m c).trans ((final1 (E4 m) c).trans
    (congrArg₂ Cert.Spec.MatK (V4_main_arg1 m (outsOf m) c) ((V4_main_v3 m (outsOf m) c).trans (V3_main_v3 m c))))

/-- The result buffer at the end: the tail function of the reference's four products. -/
theorem result_eq (c : Dev nD) :
    (Gen.V10 m (outsOf m) c main_v22 : (⟨S4096x2, .f32⟩ : BufTy).Contents (Elt Ideal))
      = TailK (F := Ideal)
          (Rdot2 (m ((c : Thread nD τ).loc main_arg0)) (m ((c : Thread nD τ).loc main_arg2)))
          (Rdot2 (m ((c : Thread nD τ).loc main_arg1)) (m ((c : Thread nD τ).loc main_arg2)))
          (Rdot128 (m ((c : Thread nD τ).loc main_arg0)) (m ((c : Thread nD τ).loc main_arg3)))
          (Rdot128 (m ((c : Thread nD τ).loc main_arg1)) (m ((c : Thread nD τ).loc main_arg3)))
          (m ((c : Thread nD τ).loc main_arg4)) (m ((c : Thread nD τ).loc main_arg5)) := by
  rw [V10_main_v22, out0_eq, out1_eq, sl02_MatK, sl02_MatK, sl2_MatK, sl2_MatK]

end Cert.KernelIdeal.Hand

end
-- ==== Proof.lean ====
/-
  The certificate's five claims.

  Both launches of the kernel compute, for one colour, the product of the [4096, 20480] feature matrix with ONE combined
  weight matrix [20480, 256] — the two score rows, then the 128 accumulator rows, zero rows below, transposed —, ten
  chunks of 2048 features at a time: the accumulator is zeroed at the first chunk, each chunk's partial product is added,
  and at the tenth chunk the row block is written out. Over the extended reals a change of float format is the identity
  and a sum may be regrouped freely, so each launch leaves exactly (features) · (combined weights); its columns 0–1 are
  the reference's features · score-weightsᵀ and its columns 2–129 the reference's features · accumulator-weightsᵀ. Everything
  after that — the bias, the clamp to [0, 1], the output layer, the differences and the final sum — is the same host
  computation in both programs, carried as one function. No law used needs finiteness, so the precondition is never opened.

  The three frames: the kernel's two programs run as ten segments of @main (five stretches of host lines before and
  after the two launches); each launch keeps its accumulator in its invariant from point to point. The reference is a
  plain host program: its frame is its run with the result dropped.
-/
import proofs.«176289_j28192165331581_1_alg».proof.Defs
import proofs.«176289_j28192165331581_1_alg».proof.Proof.Gen.Kernel
import proofs.«176289_j28192165331581_1_alg».proof.Proof.Gen.KernelIdeal
import proofs.«176289_j28192165331581_1_alg».proof.Proof.Gen.ReferenceIdeal
import proofs.«176289_j28192165331581_1_alg».proof.Proof.Gen.ReferenceIdeal.Run
import proofs.«176289_j28192165331581_1_alg».proof.Proof.Gen.ReferenceIdeal.Read
import proofs.«176289_j28192165331581_1_alg».proof.Proof.Gen.Pre_finite_inputs
import proofs.«176289_j28192165331581_1_alg».proof.Proof.KbRun
import proofs.«176289_j28192165331581_1_alg».proof.Proof.KiRun
import proofs.«176289_j28192165331581_1_alg».proof.Proof.KiValue

noncomputable section

namespace Cert.Proof

open Idealize.ShloMosaic Idealize.ShloMosaic.TcCoe Idealize.SL.Sem

/-- The printed kernel runs to the end and leaves its arguments alone. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run_main (F := Bits) m ρ)

/-- So does its idealization. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run_main (F := Ideal) m ρ)

/-- The reference is a host program: its run, the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end at the tail function of the reference's four products of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.TailK (F := Ideal)
      (Cert.KernelIdeal.Hand.Rdot2 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.KernelIdeal.Hand.Rdot2 (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.KernelIdeal.Hand.Rdot128 (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (Cert.KernelIdeal.Hand.Rdot128 (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.KernelIdeal.Hand.ref_tail,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
